-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048 : Shape := ⟨1, ![2048]⟩
abbrev S2048x4096 : Shape := ⟨2, ![2048, 4096]⟩
abbrev S2048x3 : Shape := ⟨2, ![2048, 3]⟩
abbrev S320x16 : Shape := ⟨2, ![320, 16]⟩
abbrev S4096x12288 : Shape := ⟨2, ![4096, 12288]⟩
abbrev S4096x3 : Shape := ⟨2, ![4096, 3]⟩
abbrev S81x4096 : Shape := ⟨2, ![81, 4096]⟩
abbrev S81x1 : Shape := ⟨2, ![81, 1]⟩
abbrev S_ : Shape := ⟨0, ![]⟩

class Facts : Prop where
  bcast_S_S2048x4096 : S_.BroadcastsInDim S2048x4096 (![] : Fin 0 → Fin S2048x4096.rank)
  reducesTo_S2048x4096_S_d0_1 : S2048x4096.ReducesTo [0, 1] S_
  h_S_ : 0 < S_.numel
  bcast_S_S320x16 : S_.BroadcastsInDim S320x16 (![] : Fin 0 → Fin S320x16.rank)
  reducesTo_S320x16_S_d0_1 : S320x16.ReducesTo [0, 1] S_
  bcast_S_S4096x12288 : S_.BroadcastsInDim S4096x12288 (![] : Fin 0 → Fin S4096x12288.rank)
  reducesTo_S4096x12288_S_d0_1 : S4096x12288.ReducesTo [0, 1] S_
  bcast_S_S4096x3 : S_.BroadcastsInDim S4096x3 (![] : Fin 0 → Fin S4096x3.rank)
  reducesTo_S4096x3_S_d0_1 : S4096x3.ReducesTo [0, 1] S_
  bcast_S_S81x4096 : S_.BroadcastsInDim S81x4096 (![] : Fin 0 → Fin S81x4096.rank)
  reducesTo_S81x4096_S_d0_1 : S81x4096.ReducesTo [0, 1] S_
  bcast_S_S81x1 : S_.BroadcastsInDim S81x1 (![] : Fin 0 → Fin S81x1.rank)
  reducesTo_S81x1_S_d0_1 : S81x1.ReducesTo [0, 1] S_

variable [Facts]

def fn_part1 {F : FTy → Type} [FloatOps F] (main_arg9 : FVec F S81x4096 .f32) (main_arg10 : FVec F S81x1 .f32) (main_v13 : IVec S_ 1) (main_v16 : IVec S4096x3 1) : IVec S_ 1 :=
  let main_c_5 : IVec S_ 1 := constantI S_ 1 1#1
  let main_v17 : IVec S_ 1 := (fun x v => Host.reduce IntOp.andi x v reducesTo_S4096x3_S_d0_1 h_S_) main_v16 main_c_5
  let main_v18 : IVec S_ 1 := andi main_v13 main_v17
  let main_v19 : FVec F S81x4096 .f32 := Host.absf main_arg9
  let main_cst_6 : FVec F S_ .f32 := constant S_ .f32 0x7F800000#32
  let main_v20 : FVec F S81x4096 .f32 := broadcastInDim S81x4096 ![] bcast_S_S81x4096 main_cst_6
  let main_v21 : IVec S81x4096 1 := cmpf .olt main_v19 main_v20
  let main_c_7 : IVec S_ 1 := constantI S_ 1 1#1
  let main_v22 : IVec S_ 1 := (fun x v => Host.reduce IntOp.andi x v reducesTo_S81x4096_S_d0_1 h_S_) main_v21 main_c_7
  let main_v23 : IVec S_ 1 := andi main_v18 main_v22
  let main_v24 : FVec F S81x1 .f32 := Host.absf main_arg10
  let main_cst_8 : FVec F S_ .f32 := constant S_ .f32 0x7F800000#32
  let main_v25 : FVec F S81x1 .f32 := broadcastInDim S81x1 ![] bcast_S_S81x1 main_cst_8
  let main_v26 : IVec S81x1 1 := cmpf .olt main_v24 main_v25
  let main_c_9 : IVec S_ 1 := constantI S_ 1 1#1
  let main_v27 : IVec S_ 1 := (fun x v => Host.reduce IntOp.andi x v reducesTo_S81x1_S_d0_1 h_S_) main_v26 main_c_9
  let main_v28 : IVec S_ 1 := andi main_v23 main_v27
  main_v28

def fn {F : FTy → Type} [FloatOps F] (main_arg0 : IVec S2048 32) (main_arg1 : FVec F S2048x4096 .f32) (main_arg2 : IVec S2048 32) (main_arg3 : IVec S2048x3 32) (main_arg4 : IVec S2048 32) (main_arg5 : IVec S320x16 32) (main_arg6 : FVec F S320x16 .f32) (main_arg7 : FVec F S4096x12288 .f32) (main_arg8 : FVec F S4096x3 .f32) (main_arg9 : FVec F S81x4096 .f32) (main_arg10 : FVec F S81x1 .f32) : IVec S_ 1 :=
  let main_v0 : FVec F S2048x4096 .f32 := Host.absf main_arg1
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_c : IVec S_ 1 := constantI S_ 1 1#1
  let main_v3 : IVec S_ 1 := (fun x v => Host.reduce IntOp.andi x v reducesTo_S2048x4096_S_d0_1 h_S_) main_v2 main_c
  let main_v4 : FVec F S320x16 .f32 := Host.absf main_arg6
  let main_cst_0 : FVec F S_ .f32 := constant S_ .f32 0x7F800000#32
  let main_v5 : FVec F S320x16 .f32 := broadcastInDim S320x16 ![] bcast_S_S320x16 main_cst_0
  let main_v6 : IVec S320x16 1 := cmpf .olt main_v4 main_v5
  let main_c_1 : IVec S_ 1 := constantI S_ 1 1#1
  let main_v7 : IVec S_ 1 := (fun x v => Host.reduce IntOp.andi x v reducesTo_S320x16_S_d0_1 h_S_) main_v6 main_c_1
  let main_v8 : IVec S_ 1 := andi main_v3 main_v7
  let main_v9 : FVec F S4096x12288 .f32 := Host.absf main_arg7
  let main_cst_2 : FVec F S_ .f32 := constant S_ .f32 0x7F800000#32
  let main_v10 : FVec F S4096x12288 .f32 := broadcastInDim S4096x12288 ![] bcast_S_S4096x12288 main_cst_2
  let main_v11 : IVec S4096x12288 1 := cmpf .olt main_v9 main_v10
  let main_c_3 : IVec S_ 1 := constantI S_ 1 1#1
  let main_v12 : IVec S_ 1 := (fun x v => Host.reduce IntOp.andi x v reducesTo_S4096x12288_S_d0_1 h_S_) main_v11 main_c_3
  let main_v13 : IVec S_ 1 := andi main_v8 main_v12
  let main_v14 : FVec F S4096x3 .f32 := Host.absf main_arg8
  let main_cst_4 : FVec F S_ .f32 := constant S_ .f32 0x7F800000#32
  let main_v15 : FVec F S4096x3 .f32 := broadcastInDim S4096x3 ![] bcast_S_S4096x3 main_cst_4
  let main_v16 : IVec S4096x3 1 := cmpf .olt main_v14 main_v15
  fn_part1 (F := F) main_arg9 main_arg10 main_v13 main_v16
-- ==== Kernel.lean ====
abbrev S2048 : Shape := ⟨1, ![2048]⟩
abbrev S2048x4096 : Shape := ⟨2, ![2048, 4096]⟩
abbrev S2048x3 : Shape := ⟨2, ![2048, 3]⟩
abbrev S320x16 : Shape := ⟨2, ![320, 16]⟩
abbrev S4096x12288 : Shape := ⟨2, ![4096, 12288]⟩
abbrev S4096x3 : Shape := ⟨2, ![4096, 3]⟩
abbrev S81x4096 : Shape := ⟨2, ![81, 4096]⟩
abbrev S81x1 : Shape := ⟨2, ![81, 1]⟩
abbrev S64x32x3 : Shape := ⟨3, ![64, 32, 3]⟩
abbrev S64x20x3 : Shape := ⟨3, ![64, 20, 3]⟩
abbrev S1280x3 : Shape := ⟨2, ![1280, 3]⟩
abbrev S64x32 : Shape := ⟨2, ![64, 32]⟩
abbrev S64x20 : Shape := ⟨2, ![64, 20]⟩
abbrev S1280 : Shape := ⟨1, ![1280]⟩
abbrev S2048x12288 : Shape := ⟨2, ![2048, 12288]⟩
abbrev S512x1024 : Shape := ⟨2, ![512, 1024]⟩
abbrev S1024x1024 : Shape := ⟨2, ![1024, 1024]⟩
abbrev S6144x4096 : Shape := ⟨2, ![6144, 4096]⟩
abbrev S6144 : Shape := ⟨1, ![6144]⟩
abbrev S1280x1 : Shape := ⟨2, ![1280, 1]⟩
abbrev S_ : Shape := ⟨0, ![]⟩
abbrev S4608 : Shape := ⟨1, ![4608]⟩
abbrev S4608x1 : Shape := ⟨2, ![4608, 1]⟩
abbrev S4608x2 : Shape := ⟨2, ![4608, 2]⟩
abbrev S4608x4096 : Shape := ⟨2, ![4608, 4096]⟩

abbrev nBuf : Space → Nat
  | .hbm => 110
  | .vmem => 7
  | .smem => 0
  | _ => 0

abbrev bufTy : (tb : Table) → Fin (tcTables nBuf tb) → BufTy
  | .hbm, ⟨0, _⟩ => ⟨S2048, .i32⟩
  | .hbm, ⟨1, _⟩ => ⟨S2048x4096, .f32⟩
  | .hbm, ⟨2, _⟩ => ⟨S2048, .i32⟩
  | .hbm, ⟨3, _⟩ => ⟨S2048x3, .i32⟩
  | .hbm, ⟨4, _⟩ => ⟨S2048, .i32⟩
  | .hbm, ⟨5, _⟩ => ⟨S320x16, .i32⟩
  | .hbm, ⟨6, _⟩ => ⟨S320x16, .f32⟩
  | .hbm, ⟨7, _⟩ => ⟨S4096x12288, .f32⟩
  | .hbm, ⟨8, _⟩ => ⟨S4096x3, .f32⟩
  | .hbm, ⟨9, _⟩ => ⟨S81x4096, .f32⟩
  | .hbm, ⟨10, _⟩ => ⟨S81x1, .f32⟩
  | .hbm, ⟨11, _⟩ => ⟨S64x32x3, .i32⟩
  | .hbm, ⟨12, _⟩ => ⟨S64x20x3, .i32⟩
  | .hbm, ⟨13, _⟩ => ⟨S1280x3, .i32⟩
  | .hbm, ⟨14, _⟩ => ⟨S64x32, .i32⟩
  | .hbm, ⟨15, _⟩ => ⟨S64x20, .i32⟩
  | .hbm, ⟨16, _⟩ => ⟨S1280, .i32⟩
  | .hbm, ⟨17, _⟩ => ⟨S2048x12288, .f32⟩
  | .hbm, ⟨18, _⟩ => ⟨S6144x4096, .f32⟩
  | .hbm, ⟨19, _⟩ => ⟨S2048x3, .f32⟩
  | .hbm, ⟨20, _⟩ => ⟨S6144, .f32⟩
  | .hbm, ⟨21, _⟩ => ⟨S1280x1, .i32⟩
  | .hbm, ⟨22, _⟩ => ⟨S1280, .i32⟩
  | .hbm, ⟨23, _⟩ => ⟨S1280x1, .i32⟩
  | .hbm, ⟨24, _⟩ => ⟨S1280, .i32⟩
  | .hbm, ⟨25, _⟩ => ⟨S2048, .i32⟩
  | .hbm, ⟨26, _⟩ => ⟨S_, .i32⟩
  | .hbm, ⟨27, _⟩ => ⟨S1280, .i32⟩
  | .hbm, ⟨28, _⟩ => ⟨S1280, .i32⟩
  | .hbm, ⟨29, _⟩ => ⟨S_, .i32⟩
  | .hbm, ⟨30, _⟩ => ⟨S1280, .i32⟩
  | .hbm, ⟨31, _⟩ => ⟨S1280, .i32⟩
  | .hbm, ⟨32, _⟩ => ⟨S_, .i32⟩
  | .hbm, ⟨33, _⟩ => ⟨S1280, .i32⟩
  | .hbm, ⟨34, _⟩ => ⟨S1280, .i32⟩
  | .hbm, ⟨35, _⟩ => ⟨S_, .i32⟩
  | .hbm, ⟨36, _⟩ => ⟨S1280, .i32⟩
  | .hbm, ⟨37, _⟩ => ⟨S1280, .i32⟩
  | .hbm, ⟨38, _⟩ => ⟨S_, .i32⟩
  | .hbm, ⟨39, _⟩ => ⟨S2048, .i32⟩
  | .hbm, ⟨40, _⟩ => ⟨S2048, .i32⟩
  | .hbm, ⟨41, _⟩ => ⟨S_, .i32⟩
  | .hbm, ⟨42, _⟩ => ⟨S2048, .i32⟩
  | .hbm, ⟨43, _⟩ => ⟨S2048, .i32⟩
  | .hbm, ⟨44, _⟩ => ⟨S4608, .i32⟩
  | .hbm, ⟨45, _⟩ => ⟨S_, .i32⟩
  | .hbm, ⟨46, _⟩ => ⟨S2048, .i32⟩
  | .hbm, ⟨47, _⟩ => ⟨S4608, .i32⟩
  | .hbm, ⟨48, _⟩ => ⟨S4608, .i32⟩
  | .hbm, ⟨49, _⟩ => ⟨S_, .i32⟩
  | .hbm, ⟨50, _⟩ => ⟨S4608, .i32⟩
  | .hbm, ⟨51, _⟩ => ⟨S4608, .i1⟩
  | .hbm, ⟨52, _⟩ => ⟨S_, .i32⟩
  | .hbm, ⟨53, _⟩ => ⟨S4608, .i32⟩
  | .hbm, ⟨54, _⟩ => ⟨S4608, .i32⟩
  | .hbm, ⟨55, _⟩ => ⟨S4608, .i32⟩
  | .hbm, ⟨56, _⟩ => ⟨S4608x1, .i32⟩
  | .hbm, ⟨57, _⟩ => ⟨S4608, .f32⟩
  | .hbm, ⟨58, _⟩ => ⟨S_, .i32⟩
  | .hbm, ⟨59, _⟩ => ⟨S4608, .i32⟩
  | .hbm, ⟨60, _⟩ => ⟨S4608, .i1⟩
  | .hbm, ⟨61, _⟩ => ⟨S_, .i32⟩
  | .hbm, ⟨62, _⟩ => ⟨S4608, .i32⟩
  | .hbm, ⟨63, _⟩ => ⟨S4608, .i32⟩
  | .hbm, ⟨64, _⟩ => ⟨S4608, .i32⟩
  | .hbm, ⟨65, _⟩ => ⟨S_, .i32⟩
  | .hbm, ⟨66, _⟩ => ⟨S4608, .i32⟩
  | .hbm, ⟨67, _⟩ => ⟨S4608, .i32⟩
  | .hbm, ⟨68, _⟩ => ⟨S4608x1, .i32⟩
  | .hbm, ⟨69, _⟩ => ⟨S4608x1, .i32⟩
  | .hbm, ⟨70, _⟩ => ⟨S4608x2, .i32⟩
  | .hbm, ⟨71, _⟩ => ⟨S4608, .f32⟩
  | .hbm, ⟨72, _⟩ => ⟨S4608, .f32⟩
  | .hbm, ⟨73, _⟩ => ⟨S4608, .f32⟩
  | .hbm, ⟨74, _⟩ => ⟨S4608, .f32⟩
  | .hbm, ⟨75, _⟩ => ⟨S_, .f32⟩
  | .hbm, ⟨76, _⟩ => ⟨S4608, .f32⟩
  | .hbm, ⟨77, _⟩ => ⟨S4608, .f32⟩
  | .hbm, ⟨78, _⟩ => ⟨S_, .f32⟩
  | .hbm, ⟨79, _⟩ => ⟨S4608, .f32⟩
  | .hbm, ⟨80, _⟩ => ⟨S4608, .f32⟩
  | .hbm, ⟨81, _⟩ => ⟨S4608x1, .f32⟩
  | .hbm, ⟨82, _⟩ => ⟨S_, .i32⟩
  | .hbm, ⟨83, _⟩ => ⟨S4608, .i32⟩
  | .hbm, ⟨84, _⟩ => ⟨S4608, .i1⟩
  | .hbm, ⟨85, _⟩ => ⟨S_, .i32⟩
  | .hbm, ⟨86, _⟩ => ⟨S4608, .i32⟩
  | .hbm, ⟨87, _⟩ => ⟨S4608, .i32⟩
  | .hbm, ⟨88, _⟩ => ⟨S4608, .i32⟩
  | .hbm, ⟨89, _⟩ => ⟨S4608x1, .i32⟩
  | .hbm, ⟨90, _⟩ => ⟨S4608x4096, .f32⟩
  | .hbm, ⟨91, _⟩ => ⟨S_, .i32⟩
  | .hbm, ⟨92, _⟩ => ⟨S4608, .i32⟩
  | .hbm, ⟨93, _⟩ => ⟨S4608, .i1⟩
  | .hbm, ⟨94, _⟩ => ⟨S_, .i32⟩
  | .hbm, ⟨95, _⟩ => ⟨S4608, .i32⟩
  | .hbm, ⟨96, _⟩ => ⟨S4608, .i32⟩
  | .hbm, ⟨97, _⟩ => ⟨S4608, .i32⟩
  | .hbm, ⟨98, _⟩ => ⟨S4608x1, .i32⟩
  | .hbm, ⟨99, _⟩ => ⟨S4608x4096, .f32⟩
  | .hbm, ⟨100, _⟩ => ⟨S4608x4096, .f32⟩
  | .hbm, ⟨101, _⟩ => ⟨S4608x4096, .f32⟩
  | .hbm, ⟨102, _⟩ => ⟨S4608x4096, .f32⟩
  | .hbm, ⟨103, _⟩ => ⟨S_, .f32⟩
  | .hbm, ⟨104, _⟩ => ⟨S2048x4096, .f32⟩
  | .hbm, ⟨105, _⟩ => ⟨S4608x1, .i32⟩
  | .hbm, ⟨106, _⟩ => ⟨S2048x4096, .f32⟩
  | .hbm, ⟨107, _⟩ => ⟨S_, .f32⟩
  | .hbm, ⟨108, _⟩ => ⟨S2048x4096, .f32⟩
  | .hbm, ⟨109, _⟩ => ⟨S2048x4096, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c : Ref sig .tc := ⟨.hbm, 26, rfl⟩
abbrev main_v15 : Ref sig .tc := ⟨.hbm, 27, rfl⟩
abbrev main_v16 : Ref sig .tc := ⟨.hbm, 28, rfl⟩
abbrev main_c_0 : Ref sig .tc := ⟨.hbm, 29, rfl⟩
abbrev main_v17 : Ref sig .tc := ⟨.hbm, 30, rfl⟩
abbrev main_v18 : Ref sig .tc := ⟨.hbm, 31, rfl⟩
abbrev main_c_1 : Ref sig .tc := ⟨.hbm, 32, rfl⟩
abbrev main_v19 : Ref sig .tc := ⟨.hbm, 33, rfl⟩
abbrev main_v20 : Ref sig .tc := ⟨.hbm, 34, rfl⟩
abbrev main_c_2 : Ref sig .tc := ⟨.hbm, 35, rfl⟩
abbrev main_v21 : Ref sig .tc := ⟨.hbm, 36, rfl⟩
abbrev main_v22 : Ref sig .tc := ⟨.hbm, 37, rfl⟩
abbrev main_c_3 : Ref sig .tc := ⟨.hbm, 38, rfl⟩
abbrev main_v23 : Ref sig .tc := ⟨.hbm, 39, rfl⟩
abbrev main_v24 : Ref sig .tc := ⟨.hbm, 40, rfl⟩
abbrev main_c_4 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_c_8 : Ref sig .tc := ⟨.hbm, 58, rfl⟩
abbrev main_v38 : Ref sig .tc := ⟨.hbm, 59, rfl⟩
abbrev main_v39 : Ref sig .tc := ⟨.hbm, 60, rfl⟩
abbrev main_c_9 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_c_10 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst : Ref sig .tc := ⟨.hbm, 75, rfl⟩
abbrev main_v52 : Ref sig .tc := ⟨.hbm, 76, rfl⟩
abbrev main_v53 : Ref sig .tc := ⟨.hbm, 77, rfl⟩
abbrev main_cst_11 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_c_12 : Ref sig .tc := ⟨.hbm, 82, rfl⟩
abbrev main_v57 : Ref sig .tc := ⟨.hbm, 83, rfl⟩
abbrev main_v58 : Ref sig .tc := ⟨.hbm, 84, rfl⟩
abbrev main_c_13 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_c_14 : Ref sig .tc := ⟨.hbm, 91, rfl⟩
abbrev main_v64 : Ref sig .tc := ⟨.hbm, 92, rfl⟩
abbrev main_v65 : Ref sig .tc := ⟨.hbm, 93, rfl⟩
abbrev main_c_15 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_16 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_call0_cst : Ref sig .tc := ⟨.hbm, 107, rfl⟩
abbrev main_call0_v0 : Ref sig .tc := ⟨.hbm, 108, rfl⟩
abbrev main_v77 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 12, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  shapeCasts_S2048x3_S64x32x3 : S2048x3.ShapeCasts S64x32x3
  slices_S64x32x3_S64x20x3_0_0_0 : S64x32x3.Slices ![0, 0, 0] S64x20x3
  shapeCasts_S64x20x3_S1280x3 : S64x20x3.ShapeCasts S1280x3
  shapeCasts_S2048_S64x32 : S2048.ShapeCasts S64x32
  slices_S64x32_S64x20_0_0 : S64x32.Slices ![0, 0] S64x20
  shapeCasts_S64x20_S1280 : S64x20.ShapeCasts S1280
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S2048x12288_S6144x4096 : S2048x12288.ShapeCasts S6144x4096
  shapeCasts_S2048x3_S6144 : S2048x3.ShapeCasts S6144
  slices_S1280x3_S1280x1_0_1 : S1280x3.Slices ![0, 1] S1280x1
  shapeCasts_S1280x1_S1280 : S1280x1.ShapeCasts S1280
  slices_S1280x3_S1280x1_0_2 : S1280x3.Slices ![0, 2] S1280x1
  bcast_S_S1280 : S_.BroadcastsInDim S1280 (![] : Fin 0 → Fin S1280.rank)
  bcast_S_S2048 : S_.BroadcastsInDim S2048 (![] : Fin 0 → Fin S2048.rank)
  concatenates_S1280_S1280_S2048_S4608_d0 : Shape.Concatenates [S1280, S1280, S2048] S4608 0
  bcast_S_S4608 : S_.BroadcastsInDim S4608 (![] : Fin 0 → Fin S4608.rank)
  bcast_S4608_S4608x1_0 : S4608.BroadcastsInDim S4608x1 (![0] : Fin 1 → Fin S4608x1.rank)
  concatenates_S4608x1_S4608x1_S4608x2_d1 : Shape.Concatenates [S4608x1, S4608x1] S4608x2 1
  bcast_S4608x1_S4608x4096_0_1 : S4608x1.BroadcastsInDim S4608x4096 (![0, 1] : Fin 2 → Fin S4608x4096.rank)
  bcast_S_S2048x4096 : S_.BroadcastsInDim S2048x4096 (![] : Fin 0 → Fin S2048x4096.rank)
  dot_S512x1024_S1024x1024_S512x1024_1_0_0_1_n_n_wf : DotDims.WF S512x1024 S1024x1024 S512x1024 [1] [0] [0] [1] [] []
  dot_S2048x4096_S4096x3_S2048x3_1_0_0_1_n_n_wf : DotDims.WF S2048x4096 S4096x3 S2048x3 [1] [0] [0] [1] [] []
  gather_S6144_S4608x1_S4608_n_0_n_n_0_1_1_wf : GatherDims.WF S6144 S4608x1 S4608 [] [0] [] [0] [] 1 ![1]
  gather_S81x1_S4608x2_S4608_n_01_n_n_01_1_11_wf : GatherDims.WF S81x1 S4608x2 S4608 [] [0, 1] [] [0, 1] [] 1 ![1, 1]
  gather_S6144x4096_S4608x1_S4608x4096_1_0_n_n_0_1_14096_wf : GatherDims.WF S6144x4096 S4608x1 S4608x4096 [1] [0] [] [0] [] 1 ![1, 4096]
  gather_S81x4096_S4608x1_S4608x4096_1_0_n_n_0_1_14096_wf : GatherDims.WF S81x4096 S4608x1 S4608x4096 [1] [0] [] [0] [] 1 ![1, 4096]
  scatter_S2048x4096_S4608x1_S4608x4096_1_0_0_1_wf : ScatterDims.WF S2048x4096 S4608x1 S4608x4096 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S2048x4096.size a
  hwx0_0 : ∀ i : grid0.Coords, EltTy.bits .f32 = 32 ∨ (Rect.block (s := S2048x4096) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x12288.size a
  hwx0_1 : ∀ i : grid0.Coords, EltTy.bits .f32 = 32 ∨ (Rect.block (s := S4096x12288) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S2048x12288.size a
  hwx0_2 : ∀ i : grid0.Coords, EltTy.bits .f32 = 32 ∨ (Rect.block (s := S2048x12288) S512x1024.size (cc0_transform_2 i) (hinb0_2 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S2048x4096_S4096x3_S2048x3_1_0_0_1_n_n : DotDims S2048x4096 S4096x3 S2048x3 where
  lhsContracting := [1]
  rhsContracting := [0]
  lhsNonContracting := [0]
  rhsNonContracting := [1]
  lhsBatch := []
  rhsBatch := []
  wf := dot_S2048x4096_S4096x3_S2048x3_1_0_0_1_n_n_wf
def gather_S6144_S4608x1_S4608_n_0_n_n_0_1_1 : GatherDims S6144 S4608x1 S4608 where
  offsetDims := []
  collapsedSliceDims := [0]
  operandBatchingDims := []
  startIndicesBatchingDims := []
  startIndexMap := [0]
  indexVectorDim := 1
  sliceSizes := ![1]
  wf := gather_S6144_S4608x1_S4608_n_0_n_n_0_1_1_wf
def gather_S81x1_S4608x2_S4608_n_01_n_n_01_1_11 : GatherDims S81x1 S4608x2 S4608 where
  offsetDims := []
  collapsedSliceDims := [0, 1]
  operandBatchingDims := []
  startIndicesBatchingDims := []
  startIndexMap := [0, 1]
  indexVectorDim := 1
  sliceSizes := ![1, 1]
  wf := gather_S81x1_S4608x2_S4608_n_01_n_n_01_1_11_wf
def gather_S6144x4096_S4608x1_S4608x4096_1_0_n_n_0_1_14096 : GatherDims S6144x4096 S4608x1 S4608x4096 where
  offsetDims := [1]
  collapsedSliceDims := [0]
  operandBatchingDims := []
  startIndicesBatchingDims := []
  startIndexMap := [0]
  indexVectorDim := 1
  sliceSizes := ![1, 4096]
  wf := gather_S6144x4096_S4608x1_S4608x4096_1_0_n_n_0_1_14096_wf
def gather_S81x4096_S4608x1_S4608x4096_1_0_n_n_0_1_14096 : GatherDims S81x4096 S4608x1 S4608x4096 where
  offsetDims := [1]
  collapsedSliceDims := [0]
  operandBatchingDims := []
  startIndicesBatchingDims := []
  startIndexMap := [0]
  indexVectorDim := 1
  sliceSizes := ![1, 4096]
  wf := gather_S81x4096_S4608x1_S4608x4096_1_0_n_n_0_1_14096_wf
def scatter_S2048x4096_S4608x1_S4608x4096_1_0_0_1 : ScatterDims S2048x4096 S4608x1 S4608x4096 where
  updateWindowDims := [1]
  insertedWindowDims := [0]
  scatterDimsToOperandDims := [0]
  indexVectorDim := 1
  wf := scatter_S2048x4096_S4608x1_S4608x4096_1_0_0_1_wf

abbrev win0_0 : Pipeline.Window sig grid0 :=
  Pipeline.Window.ofSpec (Memref.whole main_arg1) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg7) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S2048 : Shape := ⟨1, ![2048]⟩
abbrev S2048x4096 : Shape := ⟨2, ![2048, 4096]⟩
abbrev S2048x3 : Shape := ⟨2, ![2048, 3]⟩
abbrev S320x16 : Shape := ⟨2, ![320, 16]⟩
abbrev S4096x12288 : Shape := ⟨2, ![4096, 12288]⟩
abbrev S4096x3 : Shape := ⟨2, ![4096, 3]⟩
abbrev S81x4096 : Shape := ⟨2, ![81, 4096]⟩
abbrev S81x1 : Shape := ⟨2, ![81, 1]⟩
abbrev S64x32x3 : Shape := ⟨3, ![64, 32, 3]⟩
abbrev S64x20x3 : Shape := ⟨3, ![64, 20, 3]⟩
abbrev S1280x3 : Shape := ⟨2, ![1280, 3]⟩
abbrev S64x32 : Shape := ⟨2, ![64, 32]⟩
abbrev S64x20 : Shape := ⟨2, ![64, 20]⟩
abbrev S1280 : Shape := ⟨1, ![1280]⟩
abbrev S2048x12288 : Shape := ⟨2, ![2048, 12288]⟩
abbrev S6144x4096 : Shape := ⟨2, ![6144, 4096]⟩
abbrev S6144 : Shape := ⟨1, ![6144]⟩
abbrev S1280x1 : Shape := ⟨2, ![1280, 1]⟩
abbrev S_ : Shape := ⟨0, ![]⟩
abbrev S4608 : Shape := ⟨1, ![4608]⟩
abbrev S4608x1 : Shape := ⟨2, ![4608, 1]⟩
abbrev S4608x2 : Shape := ⟨2, ![4608, 2]⟩
abbrev S4608x4096 : Shape := ⟨2, ![4608, 4096]⟩

abbrev nBuf : Space → Nat
  | .hbm => 110
  | .vmem => 0
  | .smem => 0
  | _ => 0

abbrev bufTy : (tb : Table) → Fin (tcTables nBuf tb) → BufTy
  | .hbm, ⟨0, _⟩ => ⟨S2048, .i32⟩
  | .hbm, ⟨1, _⟩ => ⟨S2048x4096, .f32⟩
  | .hbm, ⟨2, _⟩ => ⟨S2048, .i32⟩
  | .hbm, ⟨3, _⟩ => ⟨S2048x3, .i32⟩
  | .hbm, ⟨4, _⟩ => ⟨S2048, .i32⟩
  | .hbm, ⟨5, _⟩ => ⟨S320x16, .i32⟩
  | .hbm, ⟨6, _⟩ => ⟨S320x16, .f32⟩
  | .hbm, ⟨7, _⟩ => ⟨S4096x12288, .f32⟩
  | .hbm, ⟨8, _⟩ => ⟨S4096x3, .f32⟩
  | .hbm, ⟨9, _⟩ => ⟨S81x4096, .f32⟩
  | .hbm, ⟨10, _⟩ => ⟨S81x1, .f32⟩
  | .hbm, ⟨11, _⟩ => ⟨S64x32x3, .i32⟩
  | .hbm, ⟨12, _⟩ => ⟨S64x20x3, .i32⟩
  | .hbm, ⟨13, _⟩ => ⟨S1280x3, .i32⟩
  | .hbm, ⟨14, _⟩ => ⟨S64x32, .i32⟩
  | .hbm, ⟨15, _⟩ => ⟨S64x20, .i32⟩
  | .hbm, ⟨16, _⟩ => ⟨S1280, .i32⟩
  | .hbm, ⟨17, _⟩ => ⟨S2048x12288, .f32⟩
  | .hbm, ⟨18, _⟩ => ⟨S6144x4096, .f32⟩
  | .hbm, ⟨19, _⟩ => ⟨S2048x3, .f32⟩
  | .hbm, ⟨20, _⟩ => ⟨S6144, .f32⟩
  | .hbm, ⟨21, _⟩ => ⟨S1280x1, .i32⟩
  | .hbm, ⟨22, _⟩ => ⟨S1280, .i32⟩
  | .hbm, ⟨23, _⟩ => ⟨S1280x1, .i32⟩
  | .hbm, ⟨24, _⟩ => ⟨S1280, .i32⟩
  | .hbm, ⟨25, _⟩ => ⟨S2048, .i32⟩
  | .hbm, ⟨26, _⟩ => ⟨S_, .i32⟩
  | .hbm, ⟨27, _⟩ => ⟨S1280, .i32⟩
  | .hbm, ⟨28, _⟩ => ⟨S1280, .i32⟩
  | .hbm, ⟨29, _⟩ => ⟨S_, .i32⟩
  | .hbm, ⟨30, _⟩ => ⟨S1280, .i32⟩
  | .hbm, ⟨31, _⟩ => ⟨S1280, .i32⟩
  | .hbm, ⟨32, _⟩ => ⟨S_, .i32⟩
  | .hbm, ⟨33, _⟩ => ⟨S1280, .i32⟩
  | .hbm, ⟨34, _⟩ => ⟨S1280, .i32⟩
  | .hbm, ⟨35, _⟩ => ⟨S_, .i32⟩
  | .hbm, ⟨36, _⟩ => ⟨S1280, .i32⟩
  | .hbm, ⟨37, _⟩ => ⟨S1280, .i32⟩
  | .hbm, ⟨38, _⟩ => ⟨S_, .i32⟩
  | .hbm, ⟨39, _⟩ => ⟨S2048, .i32⟩
  | .hbm, ⟨40, _⟩ => ⟨S2048, .i32⟩
  | .hbm, ⟨41, _⟩ => ⟨S_, .i32⟩
  | .hbm, ⟨42, _⟩ => ⟨S2048, .i32⟩
  | .hbm, ⟨43, _⟩ => ⟨S2048, .i32⟩
  | .hbm, ⟨44, _⟩ => ⟨S4608, .i32⟩
  | .hbm, ⟨45, _⟩ => ⟨S_, .i32⟩
  | .hbm, ⟨46, _⟩ => ⟨S2048, .i32⟩
  | .hbm, ⟨47, _⟩ => ⟨S4608, .i32⟩
  | .hbm, ⟨48, _⟩ => ⟨S4608, .i32⟩
  | .hbm, ⟨49, _⟩ => ⟨S_, .i32⟩
  | .hbm, ⟨50, _⟩ => ⟨S4608, .i32⟩
  | .hbm, ⟨51, _⟩ => ⟨S4608, .i1⟩
  | .hbm, ⟨52, _⟩ => ⟨S_, .i32⟩
  | .hbm, ⟨53, _⟩ => ⟨S4608, .i32⟩
  | .hbm, ⟨54, _⟩ => ⟨S4608, .i32⟩
  | .hbm, ⟨55, _⟩ => ⟨S4608, .i32⟩
  | .hbm, ⟨56, _⟩ => ⟨S4608x1, .i32⟩
  | .hbm, ⟨57, _⟩ => ⟨S4608, .f32⟩
  | .hbm, ⟨58, _⟩ => ⟨S_, .i32⟩
  | .hbm, ⟨59, _⟩ => ⟨S4608, .i32⟩
  | .hbm, ⟨60, _⟩ => ⟨S4608, .i1⟩
  | .hbm, ⟨61, _⟩ => ⟨S_, .i32⟩
  | .hbm, ⟨62, _⟩ => ⟨S4608, .i32⟩
  | .hbm, ⟨63, _⟩ => ⟨S4608, .i32⟩
  | .hbm, ⟨64, _⟩ => ⟨S4608, .i32⟩
  | .hbm, ⟨65, _⟩ => ⟨S_, .i32⟩
  | .hbm, ⟨66, _⟩ => ⟨S4608, .i32⟩
  | .hbm, ⟨67, _⟩ => ⟨S4608, .i32⟩
  | .hbm, ⟨68, _⟩ => ⟨S4608x1, .i32⟩
  | .hbm, ⟨69, _⟩ => ⟨S4608x1, .i32⟩
  | .hbm, ⟨70, _⟩ => ⟨S4608x2, .i32⟩
  | .hbm, ⟨71, _⟩ => ⟨S4608, .f32⟩
  | .hbm, ⟨72, _⟩ => ⟨S4608, .f32⟩
  | .hbm, ⟨73, _⟩ => ⟨S4608, .f32⟩
  | .hbm, ⟨74, _⟩ => ⟨S4608, .f32⟩
  | .hbm, ⟨75, _⟩ => ⟨S_, .f32⟩
  | .hbm, ⟨76, _⟩ => ⟨S4608, .f32⟩
  | .hbm, ⟨77, _⟩ => ⟨S4608, .f32⟩
  | .hbm, ⟨78, _⟩ => ⟨S_, .f32⟩
  | .hbm, ⟨79, _⟩ => ⟨S4608, .f32⟩
  | .hbm, ⟨80, _⟩ => ⟨S4608, .f32⟩
  | .hbm, ⟨81, _⟩ => ⟨S4608x1, .f32⟩
  | .hbm, ⟨82, _⟩ => ⟨S_, .i32⟩
  | .hbm, ⟨83, _⟩ => ⟨S4608, .i32⟩
  | .hbm, ⟨84, _⟩ => ⟨S4608, .i1⟩
  | .hbm, ⟨85, _⟩ => ⟨S_, .i32⟩
  | .hbm, ⟨86, _⟩ => ⟨S4608, .i32⟩
  | .hbm, ⟨87, _⟩ => ⟨S4608, .i32⟩
  | .hbm, ⟨88, _⟩ => ⟨S4608, .i32⟩
  | .hbm, ⟨89, _⟩ => ⟨S4608x1, .i32⟩
  | .hbm, ⟨90, _⟩ => ⟨S4608x4096, .f32⟩
  | .hbm, ⟨91, _⟩ => ⟨S_, .i32⟩
  | .hbm, ⟨92, _⟩ => ⟨S4608, .i32⟩
  | .hbm, ⟨93, _⟩ => ⟨S4608, .i1⟩
  | .hbm, ⟨94, _⟩ => ⟨S_, .i32⟩
  | .hbm, ⟨95, _⟩ => ⟨S4608, .i32⟩
  | .hbm, ⟨96, _⟩ => ⟨S4608, .i32⟩
  | .hbm, ⟨97, _⟩ => ⟨S4608, .i32⟩
  | .hbm, ⟨98, _⟩ => ⟨S4608x1, .i32⟩
  | .hbm, ⟨99, _⟩ => ⟨S4608x4096, .f32⟩
  | .hbm, ⟨100, _⟩ => ⟨S4608x4096, .f32⟩
  | .hbm, ⟨101, _⟩ => ⟨S4608x4096, .f32⟩
  | .hbm, ⟨102, _⟩ => ⟨S4608x4096, .f32⟩
  | .hbm, ⟨103, _⟩ => ⟨S_, .f32⟩
  | .hbm, ⟨104, _⟩ => ⟨S2048x4096, .f32⟩
  | .hbm, ⟨105, _⟩ => ⟨S4608x1, .i32⟩
  | .hbm, ⟨106, _⟩ => ⟨S2048x4096, .f32⟩
  | .hbm, ⟨107, _⟩ => ⟨S_, .f32⟩
  | .hbm, ⟨108, _⟩ => ⟨S2048x4096, .f32⟩
  | .hbm, ⟨109, _⟩ => ⟨S2048x4096, .f32⟩
  | _, _ => ⟨S2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c : Ref sig .tc := ⟨.hbm, 26, rfl⟩
abbrev main_v15 : Ref sig .tc := ⟨.hbm, 27, rfl⟩
abbrev main_v16 : Ref sig .tc := ⟨.hbm, 28, rfl⟩
abbrev main_c_0 : Ref sig .tc := ⟨.hbm, 29, rfl⟩
abbrev main_v17 : Ref sig .tc := ⟨.hbm, 30, rfl⟩
abbrev main_v18 : Ref sig .tc := ⟨.hbm, 31, rfl⟩
abbrev main_c_1 : Ref sig .tc := ⟨.hbm, 32, rfl⟩
abbrev main_v19 : Ref sig .tc := ⟨.hbm, 33, rfl⟩
abbrev main_v20 : Ref sig .tc := ⟨.hbm, 34, rfl⟩
abbrev main_c_2 : Ref sig .tc := ⟨.hbm, 35, rfl⟩
abbrev main_v21 : Ref sig .tc := ⟨.hbm, 36, rfl⟩
abbrev main_v22 : Ref sig .tc := ⟨.hbm, 37, rfl⟩
abbrev main_c_3 : Ref sig .tc := ⟨.hbm, 38, rfl⟩
abbrev main_v23 : Ref sig .tc := ⟨.hbm, 39, rfl⟩
abbrev main_v24 : Ref sig .tc := ⟨.hbm, 40, rfl⟩
abbrev main_c_4 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_c_8 : Ref sig .tc := ⟨.hbm, 58, rfl⟩
abbrev main_v38 : Ref sig .tc := ⟨.hbm, 59, rfl⟩
abbrev main_v39 : Ref sig .tc := ⟨.hbm, 60, rfl⟩
abbrev main_c_9 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_c_10 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst : Ref sig .tc := ⟨.hbm, 75, rfl⟩
abbrev main_v52 : Ref sig .tc := ⟨.hbm, 76, rfl⟩
abbrev main_v53 : Ref sig .tc := ⟨.hbm, 77, rfl⟩
abbrev main_cst_11 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_c_12 : Ref sig .tc := ⟨.hbm, 82, rfl⟩
abbrev main_v57 : Ref sig .tc := ⟨.hbm, 83, rfl⟩
abbrev main_v58 : Ref sig .tc := ⟨.hbm, 84, rfl⟩
abbrev main_c_13 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_c_14 : Ref sig .tc := ⟨.hbm, 91, rfl⟩
abbrev main_v64 : Ref sig .tc := ⟨.hbm, 92, rfl⟩
abbrev main_v65 : Ref sig .tc := ⟨.hbm, 93, rfl⟩
abbrev main_c_15 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_16 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_call0_cst : Ref sig .tc := ⟨.hbm, 107, rfl⟩
abbrev main_call0_v0 : Ref sig .tc := ⟨.hbm, 108, rfl⟩
abbrev main_v77 : Ref sig .tc := ⟨.hbm, 109, rfl⟩

abbrev nD : Nat := 1
abbrev τ : Topo := Topo.v7x

variable {F : FTy → Type} [FloatOps F]

class Facts₀ : Prop where
  shapeCasts_S2048x3_S64x32x3 : S2048x3.ShapeCasts S64x32x3
  slices_S64x32x3_S64x20x3_0_0_0 : S64x32x3.Slices ![0, 0, 0] S64x20x3
  shapeCasts_S64x20x3_S1280x3 : S64x20x3.ShapeCasts S1280x3
  shapeCasts_S2048_S64x32 : S2048.ShapeCasts S64x32
  slices_S64x32_S64x20_0_0 : S64x32.Slices ![0, 0] S64x20
  shapeCasts_S64x20_S1280 : S64x20.ShapeCasts S1280
  shapeCasts_S2048x12288_S6144x4096 : S2048x12288.ShapeCasts S6144x4096
  shapeCasts_S2048x3_S6144 : S2048x3.ShapeCasts S6144
  slices_S1280x3_S1280x1_0_1 : S1280x3.Slices ![0, 1] S1280x1
  shapeCasts_S1280x1_S1280 : S1280x1.ShapeCasts S1280
  slices_S1280x3_S1280x1_0_2 : S1280x3.Slices ![0, 2] S1280x1
  bcast_S_S1280 : S_.BroadcastsInDim S1280 (![] : Fin 0 → Fin S1280.rank)
  bcast_S_S2048 : S_.BroadcastsInDim S2048 (![] : Fin 0 → Fin S2048.rank)
  concatenates_S1280_S1280_S2048_S4608_d0 : Shape.Concatenates [S1280, S1280, S2048] S4608 0
  bcast_S_S4608 : S_.BroadcastsInDim S4608 (![] : Fin 0 → Fin S4608.rank)
  bcast_S4608_S4608x1_0 : S4608.BroadcastsInDim S4608x1 (![0] : Fin 1 → Fin S4608x1.rank)
  concatenates_S4608x1_S4608x1_S4608x2_d1 : Shape.Concatenates [S4608x1, S4608x1] S4608x2 1
  bcast_S4608x1_S4608x4096_0_1 : S4608x1.BroadcastsInDim S4608x4096 (![0, 1] : Fin 2 → Fin S4608x4096.rank)
  bcast_S_S2048x4096 : S_.BroadcastsInDim S2048x4096 (![] : Fin 0 → Fin S2048x4096.rank)
  dot_S2048x4096_S4096x12288_S2048x12288_1_0_0_1_n_n_wf : DotDims.WF S2048x4096 S4096x12288 S2048x12288 [1] [0] [0] [1] [] []
  dot_S2048x4096_S4096x3_S2048x3_1_0_0_1_n_n_wf : DotDims.WF S2048x4096 S4096x3 S2048x3 [1] [0] [0] [1] [] []
  gather_S6144_S4608x1_S4608_n_0_n_n_0_1_1_wf : GatherDims.WF S6144 S4608x1 S4608 [] [0] [] [0] [] 1 ![1]
  gather_S81x1_S4608x2_S4608_n_01_n_n_01_1_11_wf : GatherDims.WF S81x1 S4608x2 S4608 [] [0, 1] [] [0, 1] [] 1 ![1, 1]
  gather_S6144x4096_S4608x1_S4608x4096_1_0_n_n_0_1_14096_wf : GatherDims.WF S6144x4096 S4608x1 S4608x4096 [1] [0] [] [0] [] 1 ![1, 4096]
  gather_S81x4096_S4608x1_S4608x4096_1_0_n_n_0_1_14096_wf : GatherDims.WF S81x4096 S4608x1 S4608x4096 [1] [0] [] [0] [] 1 ![1, 4096]
  scatter_S2048x4096_S4608x1_S4608x4096_1_0_0_1_wf : ScatterDims.WF S2048x4096 S4608x1 S4608x4096 [1] [0] [0] 1

variable [Facts₀]

def dot_S2048x4096_S4096x12288_S2048x12288_1_0_0_1_n_n : DotDims S2048x4096 S4096x12288 S2048x12288 where
  lhsContracting := [1]
  rhsContracting := [0]
  lhsNonContracting := [0]
  rhsNonContracting := [1]
  lhsBatch := []
  rhsBatch := []
  wf := dot_S2048x4096_S4096x12288_S2048x12288_1_0_0_1_n_n_wf
def dot_S2048x4096_S4096x3_S2048x3_1_0_0_1_n_n : DotDims S2048x4096 S4096x3 S2048x3 where
  lhsContracting := [1]
  rhsContracting := [0]
  lhsNonContracting := [0]
  rhsNonContracting := [1]
  lhsBatch := []
  rhsBatch := []
  wf := dot_S2048x4096_S4096x3_S2048x3_1_0_0_1_n_n_wf
def gather_S6144_S4608x1_S4608_n_0_n_n_0_1_1 : GatherDims S6144 S4608x1 S4608 where
  offsetDims := []
  collapsedSliceDims := [0]
  operandBatchingDims := []
  startIndicesBatchingDims := []
  startIndexMap := [0]
  indexVectorDim := 1
  sliceSizes := ![1]
  wf := gather_S6144_S4608x1_S4608_n_0_n_n_0_1_1_wf
def gather_S81x1_S4608x2_S4608_n_01_n_n_01_1_11 : GatherDims S81x1 S4608x2 S4608 where
  offsetDims := []
  collapsedSliceDims := [0, 1]
  operandBatchingDims := []
  startIndicesBatchingDims := []
  startIndexMap := [0, 1]
  indexVectorDim := 1
  sliceSizes := ![1, 1]
  wf := gather_S81x1_S4608x2_S4608_n_01_n_n_01_1_11_wf
def gather_S6144x4096_S4608x1_S4608x4096_1_0_n_n_0_1_14096 : GatherDims S6144x4096 S4608x1 S4608x4096 where
  offsetDims := [1]
  collapsedSliceDims := [0]
  operandBatchingDims := []
  startIndicesBatchingDims := []
  startIndexMap := [0]
  indexVectorDim := 1
  sliceSizes := ![1, 4096]
  wf := gather_S6144x4096_S4608x1_S4608x4096_1_0_n_n_0_1_14096_wf
def gather_S81x4096_S4608x1_S4608x4096_1_0_n_n_0_1_14096 : GatherDims S81x4096 S4608x1 S4608x4096 where
  offsetDims := [1]
  collapsedSliceDims := [0]
  operandBatchingDims := []
  startIndicesBatchingDims := []
  startIndexMap := [0]
  indexVectorDim := 1
  sliceSizes := ![1, 4096]
  wf := gather_S81x4096_S4608x1_S4608x4096_1_0_n_n_0_1_14096_wf
def scatter_S2048x4096_S4608x1_S4608x4096_1_0_0_1 : ScatterDims S2048x4096 S4608x1 S4608x4096 where
  updateWindowDims := [1]
  insertedWindowDims := [0]
  scatterDimsToOperandDims := [0]
  indexVectorDim := 1
  wf := scatter_S2048x4096_S4608x1_S4608x4096_1_0_0_1_wf

class Facts : Prop extends Facts₀ where

variable [Facts]
-- ==== Proof.K.Base.lean ====
/-
  What every part of the kernel program's frame and value is stated over: the contents the region is entered with
  (the six reshapes and slices of the integer inputs have run by then), the lines after the region, the body's two
  branch conditions decided over the grid (grid point t has contraction step k = t mod 4: the accumulator is reset
  at k = 0 and copied to the output block at k = 3), where the output window is idle (everywhere but k = 3), the
  blocks of the two operands at a point, and THE ACCUMULATION: what the scratch accumulator holds after each point,
  by recursion on the point: the body's update of the zero block at k = 0, of what the point before left otherwise.
-/
import proofs.«104308_j67190468378873_1_alg».proof.Proof.Gen.Kernel.Launch
import proofs.«104308_j67190468378873_1_alg».proof.Proof.Gen.Kernel.Skeleton
import proofs.«104308_j67190468378873_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- Core `c`'s buffer contents when the region is entered: the launch memory after the six lines before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The lines after the region: the 89 of @main, then the 3 of the rectifier it calls. -/
abbrev tailOps : List (List (HloOp τ sig (Elt F))) := [hostOps1, hostOps1_1]

/-- The offset of every access of the body: the origin. -/
theorem hz2 : (![0, 0] : Fin 2 → ℕ) = fun _ => 0 := by
  funext a; fin_cases a <;> rfl

/-! ## The body's branch conditions, over the grid -/

/-- "This is the first contraction step": the guard of the accumulator's reset. -/
abbrev cond0 (i : grid0.Coords) : Prop := (Scalar.cmpi .ne (Scalar.extui (Scalar.cmpi .eq (BitVec.ofNat 32 (i 2).val) 0#32)) 0#32) = 1#1
theorem hcond0 : ∀ t : Fin cfg0.N, cond0 (grid0.coords t) ↔ t.val % 4 = 0 :=
  (by decide +kernel : ∀ t : Fin grid0.N, cond0 (grid0.coords t) ↔ t.val % 4 = 0)

/-- "This is the last contraction step": the guard of the copy to the output block. -/
abbrev cond1 (i : grid0.Coords) : Prop := k0_cond2 i = 1#1
theorem hcond1 : ∀ t : Fin cfg0.N, cond1 (grid0.coords t) ↔ t.val % 4 = 3 :=
  (by decide +kernel : ∀ t : Fin grid0.N, cond1 (grid0.coords t) ↔ t.val % 4 = 3)

/-! ## Where the windows are idle -/

theorem liveAt0 : ∀ t : Fin cfg0.N, cfg0.idle 0 (grid0.coords t) = false := by decide +kernel
theorem liveAt1 : ∀ t : Fin cfg0.N, cfg0.idle 1 (grid0.coords t) = false := by decide +kernel
/-- Away from the last contraction step the body stores nothing into the output block, -/
theorem idleAt2 : ∀ t : Fin cfg0.N, ¬cond1 (grid0.coords t) → cfg0.idle 2 (grid0.coords t) = true := by decide +kernel
/-- and the pipeline does not write it back there; -/
theorem noFlush2 : ∀ t : Fin cfg0.N, ¬cond1 (grid0.coords t) → (cfg0.win 2).flush t = false := by decide +kernel
/-- at the last step it is live. -/
theorem liveAt2 : ∀ t : Fin cfg0.N, cond1 (grid0.coords t) → cfg0.idle 2 (grid0.coords t) = false := by decide +kernel

/-! ## The memrefs the body is called with -/

abbrev ms0 (t : Fin cfg0.N) : Memref sig .tc .vmem S512x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1024 .f32 := win0_2.stage (cfg0.slots t 2)
abbrev hs2 (t : Fin cfg0.N) : (ms2 t).IsWhole := hstage0_2 ((cfg0.slots t 2).cast nbuf0_2)
/-- The accumulator: a whole scoped buffer of the kernel's own. -/
abbrev scM : Memref sig .tc .vmem S512x1024 .f32 := Memref.whole cc0_scratch0

/-- What the region hands the body besides the windows: the accumulator at some contents, the generator register. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## The operands' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The left operand's 512 × 1024 block and the right operand's 1024 × 1024 block at point `t`. -/
abbrev ablk (c : Dev nD) (t : Fin cfg0.N) : Vec F S512x1024 .f32 := iblk m c 0 t
abbrev bblk (c : Dev nD) (t : Fin cfg0.N) : Vec F S1024x1024 .f32 := iblk m c 1 t

/-- An operand's current staging buffer holds its block at every point, fetched there or not. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The accumulation -/

/-- What the accumulator holds after the body at position `n`: the body's update `k0_pay2` (the accumulator plus the
    product of the point's two blocks) of the zero block `k0_pay1` at a first contraction step, of what the point
    before left at the others. -/
def accAt (c : Dev nD) : (n : ℕ) → n < cfg0.N → Vec F S512x1024 .f32
  | 0, hn => k0_pay2 (ablk m c ⟨0, hn⟩) (bblk m c ⟨0, hn⟩) (k0_pay1 (F := F))
  | n + 1, hn =>
    if (n + 1) % 4 = 0 then k0_pay2 (ablk m c ⟨n + 1, hn⟩) (bblk m c ⟨n + 1, hn⟩) (k0_pay1 (F := F))
    else k0_pay2 (ablk m c ⟨n + 1, hn⟩) (bblk m c ⟨n + 1, hn⟩) (accAt c n (Nat.lt_of_succ_lt hn))

theorem accAt_first (c : Dev nD) (t : Fin cfg0.N) (h0 : t.val % 4 = 0) :
    accAt m c t.val t.isLt = k0_pay2 (ablk m c t) (bblk m c t) (k0_pay1 (F := F)) := by
  obtain ⟨n, hn⟩ := t
  cases n with
  | zero => rfl
  | succ n => exact if_pos h0

theorem accAt_next (c : Dev nD) (t : Fin cfg0.N) (h0 : ¬t.val % 4 = 0) :
    accAt m c t.val t.isLt = k0_pay2 (ablk m c t) (bblk m c t) (accAt m c (t.val - 1) (Nat.lt_of_le_of_lt (Nat.sub_le _ _) t.isLt)) := by
  obtain ⟨n, hn⟩ := t
  cases n with
  | zero => exact absurd (Nat.zero_mod _) h0
  | succ n => exact if_neg h0

end Cert.Kernel.Hand

end
-- ==== Proof.K.Body.lean ====
/-
  The kernel body at one grid point, as three Hoare triples, one per way its two guards fall: at a first contraction
  step it zeroes the accumulator and adds the product of the point's blocks; at a middle step it adds the product to
  what the accumulator held; at the last step it does that and copies the accumulator to the output block. In each,
  the operands' buffers are handed back as found and the accumulator holds the body's update `k0_pay2`.
-/
import proofs.«104308_j67190468378873_1_alg».proof.Proof.K.Base
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-- A store of a whole block at the origin, read back (whatever was stored before it): the stored block. -/
theorem read_store_whole {κ : Kind} {sp : Space} {S : Shape} {e : EltTy} (v : View sig κ sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  subst h
  rw [View.read_writes_eq_canon _ _ _ (fun y => ⟨_, List.mem_cons_self, by
    show y ∈ (Rect.whole S).set; rw [Rect.set_whole]; exact Finset.mem_univ y⟩)]
  exact View.canon_cons_unit_zero rfl _ w L

set_option maxHeartbeats 4000000 in
/-- A middle contraction step. -/
theorem run_mid (c : Dev nD) (i : grid0.Coords) (arg3 : Memref sig .tc .vmem S512x1024 .f32) (harg3 : arg3.IsWhole)
    (arg4 : Memref sig .tc .vmem S1024x1024 .f32) (harg4 : arg4.IsWhole) (arg5 : Memref sig .tc .vmem S512x1024 .f32) (harg5 : arg5.IsWhole)
    (arg6 : Memref sig .tc .vmem S512x1024 .f32) (harg6 : arg6.IsWhole) (hc0 : ¬cond0 i) (hc1 : ¬cond1 i)
    (x0 : Vec F S512x1024 .f32) (x1 : Vec F S1024x1024 .f32) (xo : Vec F S512x1024 .f32) (s : Vec F S512x1024 .f32)
    (E : Set ℕ) (K : PUnit → sProp 𝕄) :
    iprop(owns (c : Thread nD τ) arg3 fullShare x0 ∗ owns (c : Thread nD τ) arg4 fullShare x1 ∗ owns (c : Thread nD τ) arg5 fullShare xo
        ∗ owns (c : Thread nD τ) arg6 fullShare s
        ∗ (iprop(owns (c : Thread nD τ) arg3 fullShare x0 ∗ owns (c : Thread nD τ) arg4 fullShare x1 ∗ owns (c : Thread nD τ) arg5 fullShare xo
            ∗ owns (c : Thread nD τ) arg6 fullShare (k0_pay2 x0 x1 s)) -∗ K ⟨⟩))
      ⊢ wp frame (wpE (defs₀ (F := F)) Variants.none c none) E (cc0__matmul_kernel i arg3 harg3 arg4 harg4 arg5 harg5 arg6 harg6) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%fs, %hfs, HS⟩, Hk⟩
  obtain rfl := harg3.eq_unread hf0; obtain rfl := harg4.eq_unread hf1; obtain rfl := harg5.eq_unread hf2; obtain rfl := harg6.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact HS
  ipureintro
  rw [read_store_whole _ _ hz2]
  simp only [View.readAt_eq_ld, harg3.read_unread, harg4.read_unread, harg6.read_unread, View.ld_unit_zero (S := S512x1024) hz2, View.ld_unit_zero (S := S1024x1024) hz2]

set_option maxHeartbeats 4000000 in
/-- A first contraction step. -/
theorem run_first (c : Dev nD) (i : grid0.Coords) (arg3 : Memref sig .tc .vmem S512x1024 .f32) (harg3 : arg3.IsWhole)
    (arg4 : Memref sig .tc .vmem S1024x1024 .f32) (harg4 : arg4.IsWhole) (arg5 : Memref sig .tc .vmem S512x1024 .f32) (harg5 : arg5.IsWhole)
    (arg6 : Memref sig .tc .vmem S512x1024 .f32) (harg6 : arg6.IsWhole) (hc0 : cond0 i) (hc1 : ¬cond1 i)
    (x0 : Vec F S512x1024 .f32) (x1 : Vec F S1024x1024 .f32) (xo : Vec F S512x1024 .f32) (s : Vec F S512x1024 .f32)
    (E : Set ℕ) (K : PUnit → sProp 𝕄) :
    iprop(owns (c : Thread nD τ) arg3 fullShare x0 ∗ owns (c : Thread nD τ) arg4 fullShare x1 ∗ owns (c : Thread nD τ) arg5 fullShare xo
        ∗ owns (c : Thread nD τ) arg6 fullShare s
        ∗ (iprop(owns (c : Thread nD τ) arg3 fullShare x0 ∗ owns (c : Thread nD τ) arg4 fullShare x1 ∗ owns (c : Thread nD τ) arg5 fullShare xo
            ∗ owns (c : Thread nD τ) arg6 fullShare (k0_pay2 x0 x1 (k0_pay1 (F := F)))) -∗ K ⟨⟩))
      ⊢ wp frame (wpE (defs₀ (F := F)) Variants.none c none) E (cc0__matmul_kernel i arg3 harg3 arg4 harg4 arg5 harg5 arg6 harg6) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%fs, %hfs, HS⟩, Hk⟩
  obtain rfl := harg3.eq_unread hf0; obtain rfl := harg4.eq_unread hf1; obtain rfl := harg5.eq_unread hf2; obtain rfl := harg6.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact HS
  ipureintro
  rw [read_store_whole _ _ hz2]
  sl_unfold_run_names
  simp only [View.readAt_eq_ld, harg3.read_unread, harg4.read_unread, harg5.read_unread, harg6.read_unread, View.ld_unit_zero (S := S512x1024) hz2, View.ld_unit_zero (S := S1024x1024) hz2, View.readCov_unit_zero (S := S512x1024) _ hz2]

set_option maxHeartbeats 4000000 in
/-- The last contraction step. -/
theorem run_last (c : Dev nD) (i : grid0.Coords) (arg3 : Memref sig .tc .vmem S512x1024 .f32) (harg3 : arg3.IsWhole)
    (arg4 : Memref sig .tc .vmem S1024x1024 .f32) (harg4 : arg4.IsWhole) (arg5 : Memref sig .tc .vmem S512x1024 .f32) (harg5 : arg5.IsWhole)
    (arg6 : Memref sig .tc .vmem S512x1024 .f32) (harg6 : arg6.IsWhole) (hc0 : ¬cond0 i) (hc1 : cond1 i)
    (x0 : Vec F S512x1024 .f32) (x1 : Vec F S1024x1024 .f32) (xo : Vec F S512x1024 .f32) (s : Vec F S512x1024 .f32)
    (E : Set ℕ) (K : PUnit → sProp 𝕄) :
    iprop(owns (c : Thread nD τ) arg3 fullShare x0 ∗ owns (c : Thread nD τ) arg4 fullShare x1 ∗ owns (c : Thread nD τ) arg5 fullShare xo
        ∗ owns (c : Thread nD τ) arg6 fullShare s
        ∗ (iprop(owns (c : Thread nD τ) arg3 fullShare x0 ∗ owns (c : Thread nD τ) arg4 fullShare x1 ∗ owns (c : Thread nD τ) arg5 fullShare (k0_pay2 x0 x1 s)
            ∗ owns (c : Thread nD τ) arg6 fullShare (k0_pay2 x0 x1 s)) -∗ K ⟨⟩))
      ⊢ wp frame (wpE (defs₀ (F := F)) Variants.none c none) E (cc0__matmul_kernel i arg3 harg3 arg4 harg4 arg5 harg5 arg6 harg6) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%fs, %hfs, HS⟩, Hk⟩
  obtain rfl := harg3.eq_unread hf0; obtain rfl := harg4.eq_unread hf1; obtain rfl := harg5.eq_unread hf2; obtain rfl := harg6.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    rw [read_store_whole _ _ hz2]
    sl_unfold_run_names
    simp only [View.readAt_eq_ld, harg3.read_unread, harg4.read_unread, harg5.read_unread, harg6.read_unread, View.ld_unit_zero (S := S512x1024) hz2, View.ld_unit_zero (S := S1024x1024) hz2, View.readCov_unit_zero (S := S512x1024) _ hz2]
  iexists _; isplitr
  swap; · iexact HS
  ipureintro
  sl_unfold_run_names
  rw [read_store_whole _ _ hz2]
  simp only [View.readAt_eq_ld, harg3.read_unread, harg4.read_unread, harg5.read_unread, harg6.read_unread, View.ld_unit_zero (S := S512x1024) hz2, View.ld_unit_zero (S := S1024x1024) hz2, View.readCov_unit_zero (S := S512x1024) _ hz2]

end Cert.Kernel.Hand

end
-- ==== Proof.K.Tail.lean ====
/-
  The lines around the region. Before it run the six reshapes and slices of the integer inputs; after it the 89 lines
  of @main and the 3 of the rectifier it calls. Every one of these lines writes one buffer, its own result, and no
  result buffer is an argument of @main or the region's output: that ONE fact per stretch, stated as a `List.Forall`
  over the stretch, is what everything here is derived from — the lines after the region keep the pipeline's arrays,
  the region finds each argument at its launch contents, and at the end of the run every argument still holds them.
-/
import proofs.«104308_j67190468378873_1_alg».proof.Proof.Gen.Kernel.Launch
import proofs.«104308_j67190468378873_1_alg».proof.Proof.Gen.Kernel.Skeleton
import proofs.«104308_j67190468378873_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import proofs.«104308_j67190468378873_1_alg».proof.Proof.K.Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## No line allocates -/

theorem hostOps0_fresh : (hostOps0 : List (HloOp τ sig (Elt F))).Forall fun op => op.fresh = ∅ := by
  simp only [List.Forall]; repeat' constructor
set_option maxHeartbeats 4000000 in
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
set_option maxHeartbeats 8000000 in
/-- @main is the lines before the region, the region, the lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1]) :=
  Pipeline.hmain_around cfgs 0 defs₀ 𝒱₀ m main [hostOps0] [hostOps1, hostOps1_1] hostOps0_sub hostOps0_fresh main_chain

/-! ## What the lines write -/

/-- The buffers no line around the region writes: the eleven arguments of @main and the region's output. -/
abbrev kept : List (Ref sig .tc) :=
  [main_arg0, main_arg1, main_arg2, main_arg3, main_arg4, main_arg5, main_arg6, main_arg7, main_arg8, main_arg9, main_arg10, main_v6]

/-- A line spares the kept buffers: it writes none of them. -/
def Spares (op : HloOp τ sig (Elt F)) : Prop := ∀ b ∈ kept, Proc.devRef (τ := τ) .tc b ∉ op.writes

/-- A line writing the one buffer `y` (every line here does) spares the kept buffers when `y` is none of them. -/
theorem spares_of_writes {op : HloOp τ sig (Elt F)} {y : Ref sig .tc} (hw : op.writes = {Proc.devRef .tc y}) (hy : ∀ b ∈ kept, b ≠ y) :
    Spares op := fun b hb h => by
  rw [hw, Finset.mem_singleton] at h
  exact hy b hb (Proc.devRef_injective _ h)

/-- THE FACT, for the six lines before the region: each writes only its own result (`main_v0` … `main_v5`). -/
theorem hostOps0_spares : (hostOps0 : List (HloOp τ sig (Elt F))).Forall Spares := by
  simp only [List.Forall]; repeat' constructor
  all_goals exact spares_of_writes rfl (by decide)

set_option maxHeartbeats 4000000 in
/-- THE FACT, for the 89 lines of @main after the region: each writes only its own result (`main_v7` … `main_v76` and
    the constants' buffers). -/
theorem hostOps1_spares : (hostOps1 : List (HloOp τ sig (Elt F))).Forall Spares := by
  simp only [List.Forall]; repeat' constructor
  all_goals exact spares_of_writes rfl (by decide)

/-- THE FACT, for the 3 lines of the rectifier: each writes only its own result (its constant, its broadcast, `main_v77`). -/
theorem hostOps1_1_spares : (hostOps1_1 : List (HloOp τ sig (Elt F))).Forall Spares := by
  simp only [List.Forall]; repeat' constructor
  all_goals exact spares_of_writes rfl (by decide)

/-- Every line after the region spares the kept buffers. -/
theorem tail_spares : ∀ ops ∈ (tailOps : List (List (HloOp τ sig (Elt F)))), ∀ op ∈ ops, Spares op := by
  intro ops hops op hop
  rcases List.mem_cons.mp hops with rfl | hops
  · exact (List.forall_iff_forall_mem.mp hostOps1_spares) op hop
  · obtain rfl := List.mem_singleton.mp hops
    exact (List.forall_iff_forall_mem.mp hostOps1_1_spares) op hop

/-- The pipeline's three arrays (the two operands, the product) are kept buffers. -/
theorem arr_kept : ∀ w, Pipeline.arrRef spec0 w ∈ (kept : List (Ref sig .tc)) := by decide

/-! ## What the launch asks of the lines after the region -/

/-- They touch the pipeline's arrays and the bypassing buffers only: each line's buffers are unscoped TensorCore
    references, and with nothing prefetched every such reference is one or the other. -/
theorem sfx_sub : ∀ ops ∈ (tailOps : List (List (HloOp τ sig (Elt F)))), ∀ op ∈ ops, op.bufs ⊆ Pipeline.tailRefs sig Pipeline.Prefetch.none spec0 := by
  rw [Pipeline.tailRefs_none spec0 launch0.win.arr_unscoped]
  intro ops hops op hop
  rcases List.mem_cons.mp hops with rfl | hops
  · exact Pipeline.sub_ucRefs op ((List.forall_iff_forall_mem.mp hostOps1_sub) op hop)
  · obtain rfl := List.mem_singleton.mp hops
    exact Pipeline.sub_ucRefs op ((List.forall_iff_forall_mem.mp hostOps1_1_sub) op hop)

/-- They allocate nothing. -/
theorem sfx_fresh : ∀ ops ∈ (tailOps : List (List (HloOp τ sig (Elt F)))), ∀ op ∈ ops, op.fresh = ∅ := by
  intro ops hops op hop
  rcases List.mem_cons.mp hops with rfl | hops
  · exact (List.forall_iff_forall_mem.mp hostOps1_fresh) op hop
  · obtain rfl := List.mem_singleton.mp hops
    exact (List.forall_iff_forall_mem.mp hostOps1_1_fresh) op hop

/-- And they write no array of the pipeline: the arrays are kept buffers. -/
theorem sfx_keeps : ∀ ops ∈ (tailOps : List (List (HloOp τ sig (Elt F)))), ∀ op ∈ ops, ∀ w, Proc.devRef .tc (Pipeline.arrRef spec0 w) ∉ op.writes :=
  fun ops hops op hop w => tail_spares ops hops op hop _ (arr_kept w)

/-! ## The region finds each argument at its launch contents -/

/-- No line before the region writes a kept buffer, so the region is entered with it as launched. -/
theorem V_of_kept (c : Dev nD) (b : Ref sig .tc) (hb : b ∈ kept) : V m c b = m ((c : Thread nD τ).loc b) := by
  refine (StableHlo.after_of_forall_not_mem (List.flatten [hostOps0]) (fun b => m (c, b)) fun op hop => ?_).trans rfl
  obtain ⟨ops, hops, hop⟩ := List.mem_flatten.mp hop
  obtain rfl := List.mem_singleton.mp hops
  exact (List.forall_iff_forall_mem.mp hostOps0_spares) op hop b hb

theorem V_main_arg0 (c : Dev nD) : V m c main_arg0 = m ((c : Thread nD τ).loc main_arg0) := V_of_kept m c main_arg0 (by decide)
theorem V_main_arg1 (c : Dev nD) : V m c main_arg1 = m ((c : Thread nD τ).loc main_arg1) := V_of_kept m c main_arg1 (by decide)
theorem V_main_arg2 (c : Dev nD) : V m c main_arg2 = m ((c : Thread nD τ).loc main_arg2) := V_of_kept m c main_arg2 (by decide)
theorem V_main_arg3 (c : Dev nD) : V m c main_arg3 = m ((c : Thread nD τ).loc main_arg3) := V_of_kept m c main_arg3 (by decide)
theorem V_main_arg4 (c : Dev nD) : V m c main_arg4 = m ((c : Thread nD τ).loc main_arg4) := V_of_kept m c main_arg4 (by decide)
theorem V_main_arg5 (c : Dev nD) : V m c main_arg5 = m ((c : Thread nD τ).loc main_arg5) := V_of_kept m c main_arg5 (by decide)
theorem V_main_arg6 (c : Dev nD) : V m c main_arg6 = m ((c : Thread nD τ).loc main_arg6) := V_of_kept m c main_arg6 (by decide)
theorem V_main_arg7 (c : Dev nD) : V m c main_arg7 = m ((c : Thread nD τ).loc main_arg7) := V_of_kept m c main_arg7 (by decide)
theorem V_main_arg8 (c : Dev nD) : V m c main_arg8 = m ((c : Thread nD τ).loc main_arg8) := V_of_kept m c main_arg8 (by decide)
theorem V_main_arg9 (c : Dev nD) : V m c main_arg9 = m ((c : Thread nD τ).loc main_arg9) := V_of_kept m c main_arg9 (by decide)
theorem V_main_arg10 (c : Dev nD) : V m c main_arg10 = m ((c : Thread nD τ).loc main_arg10) := V_of_kept m c main_arg10 (by decide)

/-! ## The frame claim's post from the frame run's -/

/-- After the lines that follow the region, a kept buffer that is no array of the pipeline holds its launch contents:
    no later line writes it, the region passed it by, no earlier line wrote it. -/
theorem afterTail_of_kept (dats : (p : Fin 1) → (c : Dev nD) → Dat τ (Elt F) Unit ℕ (UR sig nD τ) ℕ (cfgs p) c)
    (c : Dev nD) (b : Ref sig .tc) (hb : b ∈ kept) (hn : ∀ w, Pipeline.arrRef spec0 w ≠ b) :
    Pipeline.afterTail₀ cfgs dats 0 (V0 m) tailOps c b = m ((c.tc : Thread nD τ).loc b) := by
  unfold Pipeline.afterTail₀
  refine (StableHlo.after_of_forall_not_mem _ _ fun op hop => ?_).trans
    ((Pipeline.withArrays_of_ne _ c (V0 m c) _ b hn).trans (V_of_kept m c b hb))
  obtain ⟨ops, hops, hop⟩ := List.mem_flatten.mp hop
  exact tail_spares ops hops op hop b hb

/-- At the end of a frame run such a buffer holds its launch contents: it bypasses the region. -/
theorem post_of_kept (dats : (p : Fin 1) → (c : Dev nD) → Dat τ (Elt F) Unit ℕ (UR sig nD τ) ℕ (cfgs p) c)
    {r : PUnit × MemSt nD τ sig (Elt F)}
    (h : Pipeline.FramePost cfgs dats 0 (Pipeline.afterTail₀ cfgs dats 0 (V0 m) tailOps) r)
    (c : Dev nD) (b : Ref sig .tc) (hb : b ∈ kept) (hs : b.isScoped = false) (hn : ∀ w, Pipeline.arrRef spec0 w ≠ b) :
    r.2.mem ((c.tc : Thread nD τ).loc b) = m ((c.tc : Thread nD τ).loc b) :=
  ((h c).2 b (Pipeline.mem_restRefs_of b hs hn)).trans (afterTail_of_kept m dats c b hb hn)

/-- THE FRAME from a frame run, with the result buffer's contents named: the result bypasses the region and holds what
    the lines after it computed; an operand the pipeline stages holds its entry contents (an input window's array is
    never written), which are the launch's; every other argument bypasses the region and no line writes it. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_v77) = Pipeline.afterTail₀ cfgs dats 0 (V0 m) tailOps c main_v77
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
    ⟨(h c).2 main_v77 (Pipeline.mem_restRefs_of main_v77 (by decide) (by decide)),
     post_of_kept m dats h c main_arg0 (by decide) (by decide) (by decide),
     ((h c).1 0).trans (((dats 0 c).arrAt_in 0 rfl _).trans ((hA c 0).trans (V_main_arg1 m c))),
     post_of_kept m dats h c main_arg2 (by decide) (by decide) (by decide),
     post_of_kept m dats h c main_arg3 (by decide) (by decide) (by decide),
     post_of_kept m dats h c main_arg4 (by decide) (by decide) (by decide),
     post_of_kept m dats h c main_arg5 (by decide) (by decide) (by decide),
     post_of_kept m dats h c main_arg6 (by decide) (by decide) (by decide),
     ((h c).1 1).trans (((dats 0 c).arrAt_in 1 rfl _).trans ((hA c 1).trans (V_main_arg7 m c))),
     post_of_kept m dats h c main_arg8 (by decide) (by decide) (by decide),
     post_of_kept m dats h c main_arg9 (by decide) (by decide) (by decide),
     post_of_kept m dats h c main_arg10 (by decide) (by decide) (by decide)⟩) h

end Cert.Kernel.Hand

end
-- ==== Proof.K.Frame.lean ====
/-
  The frame of the kernel program: the region's proof data and the run. Between grid points the region's invariant
  holds the accumulator at what the accumulation says the point before left (before the first point: at anything);
  after the body at a point the operands' buffers hold their blocks and the output block's buffer, at a last
  contraction step, the accumulator's contents (elsewhere it is idle: handed back as found). The body obligation
  is the body's triple for the point's case; the launch is the library's frame run for a region followed by host
  lines, whose post names every array after the run.
-/
import proofs.«104308_j67190468378873_1_alg».proof.Proof.K.Body
import proofs.«104308_j67190468378873_1_alg».proof.Proof.K.Tail

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The invariant between points -/

/-- Before position `n`: at the region's entry what the launch hands over (the accumulator at anything); afterwards
    the accumulator at what the point before left, and the generator register at some state. -/
def PhiS (c : Dev nD) : (n : ℕ) → n ≤ cfg0.N → sProp 𝕄
  | 0, _ => Pipeline.ΦA spec0 c
  | n + 1, hn => iprop(iprop(owns (c : Thread nD τ) scM fullShare (accAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (accAt m c n hn)) ∗ (∃ r, prngReg c r)) := rfl

theorem PhiS_pos (c : Dev nD) (n : ℕ) (h : n ≤ cfg0.N) (hz : n ≠ 0) :
    PhiS m c n h = iprop(iprop(owns (c : Thread nD τ) scM fullShare (accAt m c (n - 1) (by omega))) ∗ (∃ r, prngReg c r)) := by
  cases n with
  | zero => exact absurd rfl hz
  | succ n => rfl

/-! ## The proof data -/

/-- On core `c`: the arrays as the region finds them; after the body at point `t` the operands' buffers at their
    blocks and the output block's at the accumulator's contents; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => accAt m c t.val t.isLt
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = accAt m c t.val t.isLt := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point, by the contraction step `t mod 4`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ]
  have hN : t.val < 192 := lt_of_lt_of_eq t.isLt (show cfg0.N = 192 from N_0)
  rw [show (dats m 0 c).leavesExact 0 t = owns (c : Thread nD τ) (ms0 t) fullShare ((dats m 0 c).after 0 t) from by
    unfold Dat.leavesExact; rw [liveAt0 t], after0]
  rw [show (dats m 0 c).leavesExact 1 t = owns (c : Thread nD τ) (ms1 t) fullShare ((dats m 0 c).after 1 t) from by
    unfold Dat.leavesExact; rw [liveAt1 t], after1]
  by_cases h1 : t.val % 4 = 3
  · -- the last contraction step: the accumulator is copied to the output block
    have h0 : ¬t.val % 4 = 0 := by omega
    have hz : t.val ≠ 0 := by omega
    rw [show (dats m 0 c).leavesExact 2 t = owns (c : Thread nD τ) (ms2 t) fullShare ((dats m 0 c).after 2 t) from by
      unfold Dat.leavesExact; rw [liveAt2 t ((hcond1 t).mpr h1)], after2]
    rw [accAt_next m c t h0, PhiS_castSucc m c t, PhiS_pos m c _ _ hz]
    iintro ⟨⟨HS, Hg⟩, Ho, ⟨%d0, H0⟩, ⟨%d1, H1⟩, ⟨%d2, H2⟩⟩
    iapply (run_last c (grid0.coords t) (ms0 t) (hs0 t) (ms1 t) (hs1 t) (ms2 t) (hs2 t) scM (Memref.isWhole_whole _)
      (fun h => h0 ((hcond0 t).mp h)) ((hcond1 t).mpr h1) (ablk m c t) (bblk m c t) _ _ Set.univ _)
    isplitl [H0]; · iexact H0
    isplitl [H1]; · iexact H1
    isplitl [H2]; · iexact H2
    isplitl [HS]; · iexact HS
    iintro ⟨H0, H1, H2, HS⟩
    isplitl [HS Hg]
    · isplitl [HS]; · iexact HS
      iexact Hg
    isplitl [Ho]; · iexact Ho
    isplitl [H0]; · iexact H0
    isplitl [H1]; · iexact H1
    iexact H2
  · rw [Dat.leavesExact_idle (dats m 0 c) 2 t (idleAt2 t (fun h => h1 ((hcond1 t).mp h))) (noFlush2 t (fun h => h1 ((hcond1 t).mp h)))]
    by_cases h0 : t.val % 4 = 0
    · -- a first contraction step: the accumulator restarts from zero
      rw [accAt_first m c t h0]
      by_cases hz : t.val = 0
      · rw [PhiS_castSucc m c t, PhiS_zero m c _ _ hz, PhiA0_eq]
        iintro ⟨⟨⟨%ds, HS⟩, Hg⟩, Ho, ⟨%d0, H0⟩, ⟨%d1, H1⟩, ⟨%d2, H2⟩⟩
        iapply (run_first c (grid0.coords t) (ms0 t) (hs0 t) (ms1 t) (hs1 t) (ms2 t) (hs2 t) scM (Memref.isWhole_whole _)
          ((hcond0 t).mpr h0) (fun h => h1 ((hcond1 t).mp h)) (ablk m c t) (bblk m c t) _ _ Set.univ _)
        isplitl [H0]; · iexact H0
        isplitl [H1]; · iexact H1
        isplitl [H2]; · iexact H2
        isplitl [HS]; · iexact HS
        iintro ⟨H0, H1, H2, HS⟩
        isplitl [HS Hg]
        · isplitl [HS]; · iexact HS
          iexact Hg
        isplitl [Ho]; · iexact Ho
        isplitl [H0]; · iexact H0
        isplitl [H1]; · iexact H1
        iexists _; iexact H2
      · rw [PhiS_castSucc m c t, PhiS_pos m c _ _ hz]
        iintro ⟨⟨HS, Hg⟩, Ho, ⟨%d0, H0⟩, ⟨%d1, H1⟩, ⟨%d2, H2⟩⟩
        iapply (run_first c (grid0.coords t) (ms0 t) (hs0 t) (ms1 t) (hs1 t) (ms2 t) (hs2 t) scM (Memref.isWhole_whole _)
          ((hcond0 t).mpr h0) (fun h => h1 ((hcond1 t).mp h)) (ablk m c t) (bblk m c t) _ _ Set.univ _)
        isplitl [H0]; · iexact H0
        isplitl [H1]; · iexact H1
        isplitl [H2]; · iexact H2
        isplitl [HS]; · iexact HS
        iintro ⟨H0, H1, H2, HS⟩
        isplitl [HS Hg]
        · isplitl [HS]; · iexact HS
          iexact Hg
        isplitl [Ho]; · iexact Ho
        isplitl [H0]; · iexact H0
        isplitl [H1]; · iexact H1
        iexists _; iexact H2
    · -- a middle contraction step
      have hz : t.val ≠ 0 := by omega
      rw [accAt_next m c t h0, PhiS_castSucc m c t, PhiS_pos m c _ _ hz]
      iintro ⟨⟨HS, Hg⟩, Ho, ⟨%d0, H0⟩, ⟨%d1, H1⟩, ⟨%d2, H2⟩⟩
      iapply (run_mid c (grid0.coords t) (ms0 t) (hs0 t) (ms1 t) (hs1 t) (ms2 t) (hs2 t) scM (Memref.isWhole_whole _)
        (fun h => h0 ((hcond0 t).mp h)) (fun h => h1 ((hcond1 t).mp h)) (ablk m c t) (bblk m c t) _ _ Set.univ _)
      isplitl [H0]; · iexact H0
      isplitl [H1]; · iexact H1
      isplitl [H2]; · iexact H2
      isplitl [HS]; · iexact HS
      iintro ⟨H0, H1, H2, HS⟩
      isplitl [HS Hg]
      · isplitl [HS]; · iexact HS
        iexact Hg
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives back what the launch handed over: the accumulator's contents are forgotten. -/
theorem hout (c : Dev nD) : (dats m 0 c).Φ (Fin.last cfg0.N) ⊢ Pipeline.ΦA spec0 c := by
  have ht : (Fin.last cfg0.N).val ≠ 0 := by rw [Fin.val_last]; have : cfg0.N = 192 := N_0; omega
  rw [show (dats m 0 c).Φ (Fin.last cfg0.N) = PhiS m c (Fin.last cfg0.N).val (Nat.le_of_lt_succ (Fin.last cfg0.N).isLt) from rfl, PhiS_pos m c _ _ ht, PhiA0_eq]
  iintro ⟨HS, Hg⟩
  isplitl [HS]
  · iexists _; iexact HS
  iexact Hg

/-! ## The run and the frame -/

set_option backward.isDefEq.respectTransparency.types false in
set_option maxHeartbeats 8000000 in
/-- From any memory with zero counters every weakly fair execution of @main terminates, and every final state has the
    region's arrays at what the proof data say and every other buffer as the lines after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

/-- The program runs to the end without a fault; its result buffer holds what the lines after the region make of the
    region's output array, and its arguments are unchanged. -/
theorem run_named : θ_run defs (onTc (τ := τ) (main (F := F))) ⟨m, fun _ => 0, ρ⟩ (fun r => ∀ c : Dev nD,
      r.2.mem ((c.tc : Thread nD τ).loc main_v77) = Pipeline.afterTail₀ cfgs (dats m) 0 (V0 m) tailOps c main_v77
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.Kernel.Hand

end
-- ==== Proof.KI.Base.lean ====
/-
  What every part of the kernel program's frame and value is stated over: the contents the region is entered with
  (the six reshapes and slices of the integer inputs have run by then), the lines after the region, the body's two
  branch conditions decided over the grid (grid point t has contraction step k = t mod 4: the accumulator is reset
  at k = 0 and copied to the output block at k = 3), where the output window is idle (everywhere but k = 3), the
  blocks of the two operands at a point, and THE ACCUMULATION: what the scratch accumulator holds after each point,
  by recursion on the point: the body's update of the zero block at k = 0, of what the point before left otherwise.
-/
import proofs.«104308_j67190468378873_1_alg».proof.Proof.Gen.KernelIdeal.Launch
import proofs.«104308_j67190468378873_1_alg».proof.Proof.Gen.KernelIdeal.Skeleton
import proofs.«104308_j67190468378873_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- Core `c`'s buffer contents when the region is entered: the launch memory after the six lines before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The lines after the region: the 89 of @main, then the 3 of the rectifier it calls. -/
abbrev tailOps : List (List (HloOp τ sig (Elt F))) := [hostOps1, hostOps1_1]

/-- The offset of every access of the body: the origin. -/
theorem hz2 : (![0, 0] : Fin 2 → ℕ) = fun _ => 0 := by
  funext a; fin_cases a <;> rfl

/-! ## The body's branch conditions, over the grid -/

/-- "This is the first contraction step": the guard of the accumulator's reset. -/
abbrev cond0 (i : grid0.Coords) : Prop := (Scalar.cmpi .ne (Scalar.extui (Scalar.cmpi .eq (BitVec.ofNat 32 (i 2).val) 0#32)) 0#32) = 1#1
theorem hcond0 : ∀ t : Fin cfg0.N, cond0 (grid0.coords t) ↔ t.val % 4 = 0 :=
  (by decide +kernel : ∀ t : Fin grid0.N, cond0 (grid0.coords t) ↔ t.val % 4 = 0)

/-- "This is the last contraction step": the guard of the copy to the output block. -/
abbrev cond1 (i : grid0.Coords) : Prop := k0_cond2 i = 1#1
theorem hcond1 : ∀ t : Fin cfg0.N, cond1 (grid0.coords t) ↔ t.val % 4 = 3 :=
  (by decide +kernel : ∀ t : Fin grid0.N, cond1 (grid0.coords t) ↔ t.val % 4 = 3)

/-! ## Where the windows are idle -/

theorem liveAt0 : ∀ t : Fin cfg0.N, cfg0.idle 0 (grid0.coords t) = false := by decide +kernel
theorem liveAt1 : ∀ t : Fin cfg0.N, cfg0.idle 1 (grid0.coords t) = false := by decide +kernel
/-- Away from the last contraction step the body stores nothing into the output block, -/
theorem idleAt2 : ∀ t : Fin cfg0.N, ¬cond1 (grid0.coords t) → cfg0.idle 2 (grid0.coords t) = true := by decide +kernel
/-- and the pipeline does not write it back there; -/
theorem noFlush2 : ∀ t : Fin cfg0.N, ¬cond1 (grid0.coords t) → (cfg0.win 2).flush t = false := by decide +kernel
/-- at the last step it is live. -/
theorem liveAt2 : ∀ t : Fin cfg0.N, cond1 (grid0.coords t) → cfg0.idle 2 (grid0.coords t) = false := by decide +kernel

/-! ## The memrefs the body is called with -/

abbrev ms0 (t : Fin cfg0.N) : Memref sig .tc .vmem S512x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1024 .f32 := win0_2.stage (cfg0.slots t 2)
abbrev hs2 (t : Fin cfg0.N) : (ms2 t).IsWhole := hstage0_2 ((cfg0.slots t 2).cast nbuf0_2)
/-- The accumulator: a whole scoped buffer of the kernel's own. -/
abbrev scM : Memref sig .tc .vmem S512x1024 .f32 := Memref.whole cc0_scratch0

/-- What the region hands the body besides the windows: the accumulator at some contents, the generator register. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## The operands' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The left operand's 512 × 1024 block and the right operand's 1024 × 1024 block at point `t`. -/
abbrev ablk (c : Dev nD) (t : Fin cfg0.N) : Vec F S512x1024 .f32 := iblk m c 0 t
abbrev bblk (c : Dev nD) (t : Fin cfg0.N) : Vec F S1024x1024 .f32 := iblk m c 1 t

/-- An operand's current staging buffer holds its block at every point, fetched there or not. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The accumulation -/

/-- What the accumulator holds after the body at position `n`: the body's update `k0_pay2` (the accumulator plus the
    product of the point's two blocks) of the zero block `k0_pay1` at a first contraction step, of what the point
    before left at the others. -/
def accAt (c : Dev nD) : (n : ℕ) → n < cfg0.N → Vec F S512x1024 .f32
  | 0, hn => k0_pay2 (ablk m c ⟨0, hn⟩) (bblk m c ⟨0, hn⟩) (k0_pay1 (F := F))
  | n + 1, hn =>
    if (n + 1) % 4 = 0 then k0_pay2 (ablk m c ⟨n + 1, hn⟩) (bblk m c ⟨n + 1, hn⟩) (k0_pay1 (F := F))
    else k0_pay2 (ablk m c ⟨n + 1, hn⟩) (bblk m c ⟨n + 1, hn⟩) (accAt c n (Nat.lt_of_succ_lt hn))

theorem accAt_first (c : Dev nD) (t : Fin cfg0.N) (h0 : t.val % 4 = 0) :
    accAt m c t.val t.isLt = k0_pay2 (ablk m c t) (bblk m c t) (k0_pay1 (F := F)) := by
  obtain ⟨n, hn⟩ := t
  cases n with
  | zero => rfl
  | succ n => exact if_pos h0

theorem accAt_next (c : Dev nD) (t : Fin cfg0.N) (h0 : ¬t.val % 4 = 0) :
    accAt m c t.val t.isLt = k0_pay2 (ablk m c t) (bblk m c t) (accAt m c (t.val - 1) (Nat.lt_of_le_of_lt (Nat.sub_le _ _) t.isLt)) := by
  obtain ⟨n, hn⟩ := t
  cases n with
  | zero => exact absurd (Nat.zero_mod _) h0
  | succ n => exact if_neg h0

end Cert.KernelIdeal.Hand

end
-- ==== Proof.KI.Body.lean ====
/-
  The kernel body at one grid point, as three Hoare triples, one per way its two guards fall: at a first contraction
  step it zeroes the accumulator and adds the product of the point's blocks; at a middle step it adds the product to
  what the accumulator held; at the last step it does that and copies the accumulator to the output block. In each,
  the operands' buffers are handed back as found and the accumulator holds the body's update `k0_pay2`.
-/
import proofs.«104308_j67190468378873_1_alg».proof.Proof.KI.Base
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- A store of a whole block at the origin, read back (whatever was stored before it): the stored block. -/
theorem read_store_whole {κ : Kind} {sp : Space} {S : Shape} {e : EltTy} (v : View sig κ sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  subst h
  rw [View.read_writes_eq_canon _ _ _ (fun y => ⟨_, List.mem_cons_self, by
    show y ∈ (Rect.whole S).set; rw [Rect.set_whole]; exact Finset.mem_univ y⟩)]
  exact View.canon_cons_unit_zero rfl _ w L

set_option maxHeartbeats 4000000 in
/-- A middle contraction step. -/
theorem run_mid (c : Dev nD) (i : grid0.Coords) (arg3 : Memref sig .tc .vmem S512x1024 .f32) (harg3 : arg3.IsWhole)
    (arg4 : Memref sig .tc .vmem S1024x1024 .f32) (harg4 : arg4.IsWhole) (arg5 : Memref sig .tc .vmem S512x1024 .f32) (harg5 : arg5.IsWhole)
    (arg6 : Memref sig .tc .vmem S512x1024 .f32) (harg6 : arg6.IsWhole) (hc0 : ¬cond0 i) (hc1 : ¬cond1 i)
    (x0 : Vec F S512x1024 .f32) (x1 : Vec F S1024x1024 .f32) (xo : Vec F S512x1024 .f32) (s : Vec F S512x1024 .f32)
    (E : Set ℕ) (K : PUnit → sProp 𝕄) :
    iprop(owns (c : Thread nD τ) arg3 fullShare x0 ∗ owns (c : Thread nD τ) arg4 fullShare x1 ∗ owns (c : Thread nD τ) arg5 fullShare xo
        ∗ owns (c : Thread nD τ) arg6 fullShare s
        ∗ (iprop(owns (c : Thread nD τ) arg3 fullShare x0 ∗ owns (c : Thread nD τ) arg4 fullShare x1 ∗ owns (c : Thread nD τ) arg5 fullShare xo
            ∗ owns (c : Thread nD τ) arg6 fullShare (k0_pay2 x0 x1 s)) -∗ K ⟨⟩))
      ⊢ wp frame (wpE (defs₀ (F := F)) Variants.none c none) E (cc0__matmul_kernel i arg3 harg3 arg4 harg4 arg5 harg5 arg6 harg6) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%fs, %hfs, HS⟩, Hk⟩
  obtain rfl := harg3.eq_unread hf0; obtain rfl := harg4.eq_unread hf1; obtain rfl := harg5.eq_unread hf2; obtain rfl := harg6.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact HS
  ipureintro
  rw [read_store_whole _ _ hz2]
  simp only [View.readAt_eq_ld, harg3.read_unread, harg4.read_unread, harg6.read_unread, View.ld_unit_zero (S := S512x1024) hz2, View.ld_unit_zero (S := S1024x1024) hz2]

set_option maxHeartbeats 4000000 in
/-- A first contraction step. -/
theorem run_first (c : Dev nD) (i : grid0.Coords) (arg3 : Memref sig .tc .vmem S512x1024 .f32) (harg3 : arg3.IsWhole)
    (arg4 : Memref sig .tc .vmem S1024x1024 .f32) (harg4 : arg4.IsWhole) (arg5 : Memref sig .tc .vmem S512x1024 .f32) (harg5 : arg5.IsWhole)
    (arg6 : Memref sig .tc .vmem S512x1024 .f32) (harg6 : arg6.IsWhole) (hc0 : cond0 i) (hc1 : ¬cond1 i)
    (x0 : Vec F S512x1024 .f32) (x1 : Vec F S1024x1024 .f32) (xo : Vec F S512x1024 .f32) (s : Vec F S512x1024 .f32)
    (E : Set ℕ) (K : PUnit → sProp 𝕄) :
    iprop(owns (c : Thread nD τ) arg3 fullShare x0 ∗ owns (c : Thread nD τ) arg4 fullShare x1 ∗ owns (c : Thread nD τ) arg5 fullShare xo
        ∗ owns (c : Thread nD τ) arg6 fullShare s
        ∗ (iprop(owns (c : Thread nD τ) arg3 fullShare x0 ∗ owns (c : Thread nD τ) arg4 fullShare x1 ∗ owns (c : Thread nD τ) arg5 fullShare xo
            ∗ owns (c : Thread nD τ) arg6 fullShare (k0_pay2 x0 x1 (k0_pay1 (F := F)))) -∗ K ⟨⟩))
      ⊢ wp frame (wpE (defs₀ (F := F)) Variants.none c none) E (cc0__matmul_kernel i arg3 harg3 arg4 harg4 arg5 harg5 arg6 harg6) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%fs, %hfs, HS⟩, Hk⟩
  obtain rfl := harg3.eq_unread hf0; obtain rfl := harg4.eq_unread hf1; obtain rfl := harg5.eq_unread hf2; obtain rfl := harg6.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact HS
  ipureintro
  rw [read_store_whole _ _ hz2]
  sl_unfold_run_names
  simp only [View.readAt_eq_ld, harg3.read_unread, harg4.read_unread, harg5.read_unread, harg6.read_unread, View.ld_unit_zero (S := S512x1024) hz2, View.ld_unit_zero (S := S1024x1024) hz2, View.readCov_unit_zero (S := S512x1024) _ hz2]

set_option maxHeartbeats 4000000 in
/-- The last contraction step. -/
theorem run_last (c : Dev nD) (i : grid0.Coords) (arg3 : Memref sig .tc .vmem S512x1024 .f32) (harg3 : arg3.IsWhole)
    (arg4 : Memref sig .tc .vmem S1024x1024 .f32) (harg4 : arg4.IsWhole) (arg5 : Memref sig .tc .vmem S512x1024 .f32) (harg5 : arg5.IsWhole)
    (arg6 : Memref sig .tc .vmem S512x1024 .f32) (harg6 : arg6.IsWhole) (hc0 : ¬cond0 i) (hc1 : cond1 i)
    (x0 : Vec F S512x1024 .f32) (x1 : Vec F S1024x1024 .f32) (xo : Vec F S512x1024 .f32) (s : Vec F S512x1024 .f32)
    (E : Set ℕ) (K : PUnit → sProp 𝕄) :
    iprop(owns (c : Thread nD τ) arg3 fullShare x0 ∗ owns (c : Thread nD τ) arg4 fullShare x1 ∗ owns (c : Thread nD τ) arg5 fullShare xo
        ∗ owns (c : Thread nD τ) arg6 fullShare s
        ∗ (iprop(owns (c : Thread nD τ) arg3 fullShare x0 ∗ owns (c : Thread nD τ) arg4 fullShare x1 ∗ owns (c : Thread nD τ) arg5 fullShare (k0_pay2 x0 x1 s)
            ∗ owns (c : Thread nD τ) arg6 fullShare (k0_pay2 x0 x1 s)) -∗ K ⟨⟩))
      ⊢ wp frame (wpE (defs₀ (F := F)) Variants.none c none) E (cc0__matmul_kernel i arg3 harg3 arg4 harg4 arg5 harg5 arg6 harg6) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%fs, %hfs, HS⟩, Hk⟩
  obtain rfl := harg3.eq_unread hf0; obtain rfl := harg4.eq_unread hf1; obtain rfl := harg5.eq_unread hf2; obtain rfl := harg6.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    rw [read_store_whole _ _ hz2]
    sl_unfold_run_names
    simp only [View.readAt_eq_ld, harg3.read_unread, harg4.read_unread, harg5.read_unread, harg6.read_unread, View.ld_unit_zero (S := S512x1024) hz2, View.ld_unit_zero (S := S1024x1024) hz2, View.readCov_unit_zero (S := S512x1024) _ hz2]
  iexists _; isplitr
  swap; · iexact HS
  ipureintro
  sl_unfold_run_names
  rw [read_store_whole _ _ hz2]
  simp only [View.readAt_eq_ld, harg3.read_unread, harg4.read_unread, harg5.read_unread, harg6.read_unread, View.ld_unit_zero (S := S512x1024) hz2, View.ld_unit_zero (S := S1024x1024) hz2, View.readCov_unit_zero (S := S512x1024) _ hz2]

end Cert.KernelIdeal.Hand

end
-- ==== Proof.KI.Tail.lean ====
/-
  The lines around the region. Before it run the six reshapes and slices of the integer inputs; after it the 89 lines
  of @main and the 3 of the rectifier it calls. Every one of these lines writes one buffer, its own result, and no
  result buffer is an argument of @main or the region's output: that ONE fact per stretch, stated as a `List.Forall`
  over the stretch, is what everything here is derived from — the lines after the region keep the pipeline's arrays,
  the region finds each argument at its launch contents, and at the end of the run every argument still holds them.
-/
import proofs.«104308_j67190468378873_1_alg».proof.Proof.Gen.KernelIdeal.Launch
import proofs.«104308_j67190468378873_1_alg».proof.Proof.Gen.KernelIdeal.Skeleton
import proofs.«104308_j67190468378873_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import proofs.«104308_j67190468378873_1_alg».proof.Proof.KI.Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## No line allocates -/

theorem hostOps0_fresh : (hostOps0 : List (HloOp τ sig (Elt F))).Forall fun op => op.fresh = ∅ := by
  simp only [List.Forall]; repeat' constructor
set_option maxHeartbeats 4000000 in
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
set_option maxHeartbeats 8000000 in
/-- @main is the lines before the region, the region, the lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1]) :=
  Pipeline.hmain_around cfgs 0 defs₀ 𝒱₀ m main [hostOps0] [hostOps1, hostOps1_1] hostOps0_sub hostOps0_fresh main_chain

/-! ## What the lines write -/

/-- The buffers no line around the region writes: the eleven arguments of @main and the region's output. -/
abbrev kept : List (Ref sig .tc) :=
  [main_arg0, main_arg1, main_arg2, main_arg3, main_arg4, main_arg5, main_arg6, main_arg7, main_arg8, main_arg9, main_arg10, main_v6]

/-- A line spares the kept buffers: it writes none of them. -/
def Spares (op : HloOp τ sig (Elt F)) : Prop := ∀ b ∈ kept, Proc.devRef (τ := τ) .tc b ∉ op.writes

/-- A line writing the one buffer `y` (every line here does) spares the kept buffers when `y` is none of them. -/
theorem spares_of_writes {op : HloOp τ sig (Elt F)} {y : Ref sig .tc} (hw : op.writes = {Proc.devRef .tc y}) (hy : ∀ b ∈ kept, b ≠ y) :
    Spares op := fun b hb h => by
  rw [hw, Finset.mem_singleton] at h
  exact hy b hb (Proc.devRef_injective _ h)

/-- THE FACT, for the six lines before the region: each writes only its own result (`main_v0` … `main_v5`). -/
theorem hostOps0_spares : (hostOps0 : List (HloOp τ sig (Elt F))).Forall Spares := by
  simp only [List.Forall]; repeat' constructor
  all_goals exact spares_of_writes rfl (by decide)

set_option maxHeartbeats 4000000 in
/-- THE FACT, for the 89 lines of @main after the region: each writes only its own result (`main_v7` … `main_v76` and
    the constants' buffers). -/
theorem hostOps1_spares : (hostOps1 : List (HloOp τ sig (Elt F))).Forall Spares := by
  simp only [List.Forall]; repeat' constructor
  all_goals exact spares_of_writes rfl (by decide)

/-- THE FACT, for the 3 lines of the rectifier: each writes only its own result (its constant, its broadcast, `main_v77`). -/
theorem hostOps1_1_spares : (hostOps1_1 : List (HloOp τ sig (Elt F))).Forall Spares := by
  simp only [List.Forall]; repeat' constructor
  all_goals exact spares_of_writes rfl (by decide)

/-- Every line after the region spares the kept buffers. -/
theorem tail_spares : ∀ ops ∈ (tailOps : List (List (HloOp τ sig (Elt F)))), ∀ op ∈ ops, Spares op := by
  intro ops hops op hop
  rcases List.mem_cons.mp hops with rfl | hops
  · exact (List.forall_iff_forall_mem.mp hostOps1_spares) op hop
  · obtain rfl := List.mem_singleton.mp hops
    exact (List.forall_iff_forall_mem.mp hostOps1_1_spares) op hop

/-- The pipeline's three arrays (the two operands, the product) are kept buffers. -/
theorem arr_kept : ∀ w, Pipeline.arrRef spec0 w ∈ (kept : List (Ref sig .tc)) := by decide

/-! ## What the launch asks of the lines after the region -/

/-- They touch the pipeline's arrays and the bypassing buffers only: each line's buffers are unscoped TensorCore
    references, and with nothing prefetched every such reference is one or the other. -/
theorem sfx_sub : ∀ ops ∈ (tailOps : List (List (HloOp τ sig (Elt F)))), ∀ op ∈ ops, op.bufs ⊆ Pipeline.tailRefs sig Pipeline.Prefetch.none spec0 := by
  rw [Pipeline.tailRefs_none spec0 launch0.win.arr_unscoped]
  intro ops hops op hop
  rcases List.mem_cons.mp hops with rfl | hops
  · exact Pipeline.sub_ucRefs op ((List.forall_iff_forall_mem.mp hostOps1_sub) op hop)
  · obtain rfl := List.mem_singleton.mp hops
    exact Pipeline.sub_ucRefs op ((List.forall_iff_forall_mem.mp hostOps1_1_sub) op hop)

/-- They allocate nothing. -/
theorem sfx_fresh : ∀ ops ∈ (tailOps : List (List (HloOp τ sig (Elt F)))), ∀ op ∈ ops, op.fresh = ∅ := by
  intro ops hops op hop
  rcases List.mem_cons.mp hops with rfl | hops
  · exact (List.forall_iff_forall_mem.mp hostOps1_fresh) op hop
  · obtain rfl := List.mem_singleton.mp hops
    exact (List.forall_iff_forall_mem.mp hostOps1_1_fresh) op hop

/-- And they write no array of the pipeline: the arrays are kept buffers. -/
theorem sfx_keeps : ∀ ops ∈ (tailOps : List (List (HloOp τ sig (Elt F)))), ∀ op ∈ ops, ∀ w, Proc.devRef .tc (Pipeline.arrRef spec0 w) ∉ op.writes :=
  fun ops hops op hop w => tail_spares ops hops op hop _ (arr_kept w)

/-! ## The region finds each argument at its launch contents -/

/-- No line before the region writes a kept buffer, so the region is entered with it as launched. -/
theorem V_of_kept (c : Dev nD) (b : Ref sig .tc) (hb : b ∈ kept) : V m c b = m ((c : Thread nD τ).loc b) := by
  refine (StableHlo.after_of_forall_not_mem (List.flatten [hostOps0]) (fun b => m (c, b)) fun op hop => ?_).trans rfl
  obtain ⟨ops, hops, hop⟩ := List.mem_flatten.mp hop
  obtain rfl := List.mem_singleton.mp hops
  exact (List.forall_iff_forall_mem.mp hostOps0_spares) op hop b hb

theorem V_main_arg0 (c : Dev nD) : V m c main_arg0 = m ((c : Thread nD τ).loc main_arg0) := V_of_kept m c main_arg0 (by decide)
theorem V_main_arg1 (c : Dev nD) : V m c main_arg1 = m ((c : Thread nD τ).loc main_arg1) := V_of_kept m c main_arg1 (by decide)
theorem V_main_arg2 (c : Dev nD) : V m c main_arg2 = m ((c : Thread nD τ).loc main_arg2) := V_of_kept m c main_arg2 (by decide)
theorem V_main_arg3 (c : Dev nD) : V m c main_arg3 = m ((c : Thread nD τ).loc main_arg3) := V_of_kept m c main_arg3 (by decide)
theorem V_main_arg4 (c : Dev nD) : V m c main_arg4 = m ((c : Thread nD τ).loc main_arg4) := V_of_kept m c main_arg4 (by decide)
theorem V_main_arg5 (c : Dev nD) : V m c main_arg5 = m ((c : Thread nD τ).loc main_arg5) := V_of_kept m c main_arg5 (by decide)
theorem V_main_arg6 (c : Dev nD) : V m c main_arg6 = m ((c : Thread nD τ).loc main_arg6) := V_of_kept m c main_arg6 (by decide)
theorem V_main_arg7 (c : Dev nD) : V m c main_arg7 = m ((c : Thread nD τ).loc main_arg7) := V_of_kept m c main_arg7 (by decide)
theorem V_main_arg8 (c : Dev nD) : V m c main_arg8 = m ((c : Thread nD τ).loc main_arg8) := V_of_kept m c main_arg8 (by decide)
theorem V_main_arg9 (c : Dev nD) : V m c main_arg9 = m ((c : Thread nD τ).loc main_arg9) := V_of_kept m c main_arg9 (by decide)
theorem V_main_arg10 (c : Dev nD) : V m c main_arg10 = m ((c : Thread nD τ).loc main_arg10) := V_of_kept m c main_arg10 (by decide)

/-! ## The frame claim's post from the frame run's -/

/-- After the lines that follow the region, a kept buffer that is no array of the pipeline holds its launch contents:
    no later line writes it, the region passed it by, no earlier line wrote it. -/
theorem afterTail_of_kept (dats : (p : Fin 1) → (c : Dev nD) → Dat τ (Elt F) Unit ℕ (UR sig nD τ) ℕ (cfgs p) c)
    (c : Dev nD) (b : Ref sig .tc) (hb : b ∈ kept) (hn : ∀ w, Pipeline.arrRef spec0 w ≠ b) :
    Pipeline.afterTail₀ cfgs dats 0 (V0 m) tailOps c b = m ((c.tc : Thread nD τ).loc b) := by
  unfold Pipeline.afterTail₀
  refine (StableHlo.after_of_forall_not_mem _ _ fun op hop => ?_).trans
    ((Pipeline.withArrays_of_ne _ c (V0 m c) _ b hn).trans (V_of_kept m c b hb))
  obtain ⟨ops, hops, hop⟩ := List.mem_flatten.mp hop
  exact tail_spares ops hops op hop b hb

/-- At the end of a frame run such a buffer holds its launch contents: it bypasses the region. -/
theorem post_of_kept (dats : (p : Fin 1) → (c : Dev nD) → Dat τ (Elt F) Unit ℕ (UR sig nD τ) ℕ (cfgs p) c)
    {r : PUnit × MemSt nD τ sig (Elt F)}
    (h : Pipeline.FramePost cfgs dats 0 (Pipeline.afterTail₀ cfgs dats 0 (V0 m) tailOps) r)
    (c : Dev nD) (b : Ref sig .tc) (hb : b ∈ kept) (hs : b.isScoped = false) (hn : ∀ w, Pipeline.arrRef spec0 w ≠ b) :
    r.2.mem ((c.tc : Thread nD τ).loc b) = m ((c.tc : Thread nD τ).loc b) :=
  ((h c).2 b (Pipeline.mem_restRefs_of b hs hn)).trans (afterTail_of_kept m dats c b hb hn)

/-- THE FRAME from a frame run, with the result buffer's contents named: the result bypasses the region and holds what
    the lines after it computed; an operand the pipeline stages holds its entry contents (an input window's array is
    never written), which are the launch's; every other argument bypasses the region and no line writes it. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_v77) = Pipeline.afterTail₀ cfgs dats 0 (V0 m) tailOps c main_v77
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
    ⟨(h c).2 main_v77 (Pipeline.mem_restRefs_of main_v77 (by decide) (by decide)),
     post_of_kept m dats h c main_arg0 (by decide) (by decide) (by decide),
     ((h c).1 0).trans (((dats 0 c).arrAt_in 0 rfl _).trans ((hA c 0).trans (V_main_arg1 m c))),
     post_of_kept m dats h c main_arg2 (by decide) (by decide) (by decide),
     post_of_kept m dats h c main_arg3 (by decide) (by decide) (by decide),
     post_of_kept m dats h c main_arg4 (by decide) (by decide) (by decide),
     post_of_kept m dats h c main_arg5 (by decide) (by decide) (by decide),
     post_of_kept m dats h c main_arg6 (by decide) (by decide) (by decide),
     ((h c).1 1).trans (((dats 0 c).arrAt_in 1 rfl _).trans ((hA c 1).trans (V_main_arg7 m c))),
     post_of_kept m dats h c main_arg8 (by decide) (by decide) (by decide),
     post_of_kept m dats h c main_arg9 (by decide) (by decide) (by decide),
     post_of_kept m dats h c main_arg10 (by decide) (by decide) (by decide)⟩) h

end Cert.KernelIdeal.Hand

end
-- ==== Proof.KI.Frame.lean ====
/-
  The frame of the kernel program: the region's proof data and the run. Between grid points the region's invariant
  holds the accumulator at what the accumulation says the point before left (before the first point: at anything);
  after the body at a point the operands' buffers hold their blocks and the output block's buffer, at a last
  contraction step, the accumulator's contents (elsewhere it is idle: handed back as found). The body obligation
  is the body's triple for the point's case; the launch is the library's frame run for a region followed by host
  lines, whose post names every array after the run.
-/
import proofs.«104308_j67190468378873_1_alg».proof.Proof.KI.Body
import proofs.«104308_j67190468378873_1_alg».proof.Proof.KI.Tail

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The invariant between points -/

/-- Before position `n`: at the region's entry what the launch hands over (the accumulator at anything); afterwards
    the accumulator at what the point before left, and the generator register at some state. -/
def PhiS (c : Dev nD) : (n : ℕ) → n ≤ cfg0.N → sProp 𝕄
  | 0, _ => Pipeline.ΦA spec0 c
  | n + 1, hn => iprop(iprop(owns (c : Thread nD τ) scM fullShare (accAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (accAt m c n hn)) ∗ (∃ r, prngReg c r)) := rfl

theorem PhiS_pos (c : Dev nD) (n : ℕ) (h : n ≤ cfg0.N) (hz : n ≠ 0) :
    PhiS m c n h = iprop(iprop(owns (c : Thread nD τ) scM fullShare (accAt m c (n - 1) (by omega))) ∗ (∃ r, prngReg c r)) := by
  cases n with
  | zero => exact absurd rfl hz
  | succ n => rfl

/-! ## The proof data -/

/-- On core `c`: the arrays as the region finds them; after the body at point `t` the operands' buffers at their
    blocks and the output block's at the accumulator's contents; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => accAt m c t.val t.isLt
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = accAt m c t.val t.isLt := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point, by the contraction step `t mod 4`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ]
  have hN : t.val < 192 := lt_of_lt_of_eq t.isLt (show cfg0.N = 192 from N_0)
  rw [show (dats m 0 c).leavesExact 0 t = owns (c : Thread nD τ) (ms0 t) fullShare ((dats m 0 c).after 0 t) from by
    unfold Dat.leavesExact; rw [liveAt0 t], after0]
  rw [show (dats m 0 c).leavesExact 1 t = owns (c : Thread nD τ) (ms1 t) fullShare ((dats m 0 c).after 1 t) from by
    unfold Dat.leavesExact; rw [liveAt1 t], after1]
  by_cases h1 : t.val % 4 = 3
  · -- the last contraction step: the accumulator is copied to the output block
    have h0 : ¬t.val % 4 = 0 := by omega
    have hz : t.val ≠ 0 := by omega
    rw [show (dats m 0 c).leavesExact 2 t = owns (c : Thread nD τ) (ms2 t) fullShare ((dats m 0 c).after 2 t) from by
      unfold Dat.leavesExact; rw [liveAt2 t ((hcond1 t).mpr h1)], after2]
    rw [accAt_next m c t h0, PhiS_castSucc m c t, PhiS_pos m c _ _ hz]
    iintro ⟨⟨HS, Hg⟩, Ho, ⟨%d0, H0⟩, ⟨%d1, H1⟩, ⟨%d2, H2⟩⟩
    iapply (run_last c (grid0.coords t) (ms0 t) (hs0 t) (ms1 t) (hs1 t) (ms2 t) (hs2 t) scM (Memref.isWhole_whole _)
      (fun h => h0 ((hcond0 t).mp h)) ((hcond1 t).mpr h1) (ablk m c t) (bblk m c t) _ _ Set.univ _)
    isplitl [H0]; · iexact H0
    isplitl [H1]; · iexact H1
    isplitl [H2]; · iexact H2
    isplitl [HS]; · iexact HS
    iintro ⟨H0, H1, H2, HS⟩
    isplitl [HS Hg]
    · isplitl [HS]; · iexact HS
      iexact Hg
    isplitl [Ho]; · iexact Ho
    isplitl [H0]; · iexact H0
    isplitl [H1]; · iexact H1
    iexact H2
  · rw [Dat.leavesExact_idle (dats m 0 c) 2 t (idleAt2 t (fun h => h1 ((hcond1 t).mp h))) (noFlush2 t (fun h => h1 ((hcond1 t).mp h)))]
    by_cases h0 : t.val % 4 = 0
    · -- a first contraction step: the accumulator restarts from zero
      rw [accAt_first m c t h0]
      by_cases hz : t.val = 0
      · rw [PhiS_castSucc m c t, PhiS_zero m c _ _ hz, PhiA0_eq]
        iintro ⟨⟨⟨%ds, HS⟩, Hg⟩, Ho, ⟨%d0, H0⟩, ⟨%d1, H1⟩, ⟨%d2, H2⟩⟩
        iapply (run_first c (grid0.coords t) (ms0 t) (hs0 t) (ms1 t) (hs1 t) (ms2 t) (hs2 t) scM (Memref.isWhole_whole _)
          ((hcond0 t).mpr h0) (fun h => h1 ((hcond1 t).mp h)) (ablk m c t) (bblk m c t) _ _ Set.univ _)
        isplitl [H0]; · iexact H0
        isplitl [H1]; · iexact H1
        isplitl [H2]; · iexact H2
        isplitl [HS]; · iexact HS
        iintro ⟨H0, H1, H2, HS⟩
        isplitl [HS Hg]
        · isplitl [HS]; · iexact HS
          iexact Hg
        isplitl [Ho]; · iexact Ho
        isplitl [H0]; · iexact H0
        isplitl [H1]; · iexact H1
        iexists _; iexact H2
      · rw [PhiS_castSucc m c t, PhiS_pos m c _ _ hz]
        iintro ⟨⟨HS, Hg⟩, Ho, ⟨%d0, H0⟩, ⟨%d1, H1⟩, ⟨%d2, H2⟩⟩
        iapply (run_first c (grid0.coords t) (ms0 t) (hs0 t) (ms1 t) (hs1 t) (ms2 t) (hs2 t) scM (Memref.isWhole_whole _)
          ((hcond0 t).mpr h0) (fun h => h1 ((hcond1 t).mp h)) (ablk m c t) (bblk m c t) _ _ Set.univ _)
        isplitl [H0]; · iexact H0
        isplitl [H1]; · iexact H1
        isplitl [H2]; · iexact H2
        isplitl [HS]; · iexact HS
        iintro ⟨H0, H1, H2, HS⟩
        isplitl [HS Hg]
        · isplitl [HS]; · iexact HS
          iexact Hg
        isplitl [Ho]; · iexact Ho
        isplitl [H0]; · iexact H0
        isplitl [H1]; · iexact H1
        iexists _; iexact H2
    · -- a middle contraction step
      have hz : t.val ≠ 0 := by omega
      rw [accAt_next m c t h0, PhiS_castSucc m c t, PhiS_pos m c _ _ hz]
      iintro ⟨⟨HS, Hg⟩, Ho, ⟨%d0, H0⟩, ⟨%d1, H1⟩, ⟨%d2, H2⟩⟩
      iapply (run_mid c (grid0.coords t) (ms0 t) (hs0 t) (ms1 t) (hs1 t) (ms2 t) (hs2 t) scM (Memref.isWhole_whole _)
        (fun h => h0 ((hcond0 t).mp h)) (fun h => h1 ((hcond1 t).mp h)) (ablk m c t) (bblk m c t) _ _ Set.univ _)
      isplitl [H0]; · iexact H0
      isplitl [H1]; · iexact H1
      isplitl [H2]; · iexact H2
      isplitl [HS]; · iexact HS
      iintro ⟨H0, H1, H2, HS⟩
      isplitl [HS Hg]
      · isplitl [HS]; · iexact HS
        iexact Hg
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives back what the launch handed over: the accumulator's contents are forgotten. -/
theorem hout (c : Dev nD) : (dats m 0 c).Φ (Fin.last cfg0.N) ⊢ Pipeline.ΦA spec0 c := by
  have ht : (Fin.last cfg0.N).val ≠ 0 := by rw [Fin.val_last]; have : cfg0.N = 192 := N_0; omega
  rw [show (dats m 0 c).Φ (Fin.last cfg0.N) = PhiS m c (Fin.last cfg0.N).val (Nat.le_of_lt_succ (Fin.last cfg0.N).isLt) from rfl, PhiS_pos m c _ _ ht, PhiA0_eq]
  iintro ⟨HS, Hg⟩
  isplitl [HS]
  · iexists _; iexact HS
  iexact Hg

/-! ## The run and the frame -/

set_option backward.isDefEq.respectTransparency.types false in
set_option maxHeartbeats 8000000 in
/-- From any memory with zero counters every weakly fair execution of @main terminates, and every final state has the
    region's arrays at what the proof data say and every other buffer as the lines after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

/-- The program runs to the end without a fault; its result buffer holds what the lines after the region make of the
    region's output array, and its arguments are unchanged. -/
theorem run_named : θ_run defs (onTc (τ := τ) (main (F := F))) ⟨m, fun _ => 0, ρ⟩ (fun r => ∀ c : Dev nD,
      r.2.mem ((c.tc : Thread nD τ).loc main_v77) = Pipeline.afterTail₀ cfgs (dats m) 0 (V0 m) tailOps c main_v77
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.KernelIdeal.Hand

end
-- ==== Proof.LibRowOps.lean ====
/-
  Row-wise operations read at an index, at the ideal instance, for a matrix of any number of rows: a reduction along
  the columns (a sum, a maximum) read at a row is the sum, or the fold of `max`, over that row's entries; a vector of
  row values made a column and that column broadcast along the rows read at (row, column) are the row's value; and a
  matrix product into a zero accumulator read at (row, column) is the sum over the contracted axis of the row's entries
  against the column's. None of them depends on the other rows, which is why a kernel may cut the rows into blocks.
-/
import Idealize.ShloMosaic.PureOps.Ideal.Laws
import Idealize.ShloMosaic.Lib.ValueLayout

noncomputable section

open scoped BigOperators

namespace Cert.RowOps

open Idealize.ShloMosaic Idealize.ShloMosaic.ValueIdx

variable {R N K : ℕ} {φ φ₁ φ₂ : FTy} {α : Type}

/-- Over row `r` of an `R × N` matrix reduced along its columns, the source index with column `k` put back is
    `(r, k)`. -/
theorem lift_row (h : (⟨2, ![R, N]⟩ : Shape).Reduces [(1 : Fin 2)] ⟨1, ![R]⟩) (r : Fin R) (k : Fin N) :
    h.lift (ix1 r) k = ix2 r k := by
  funext c
  apply Fin.ext
  match c with
  | ⟨0, _⟩ => rfl
  | ⟨1, _⟩ => rfl

/-- A sum along the columns, read at row `r`: the sum of that row's entries. -/
theorem rowSum_apply (src : FVec Ideal ⟨2, ![R, N]⟩ φ) (acc : BitVec φ.bits)
    (h : (⟨2, ![R, N]⟩ : Shape).Reduces [(1 : Fin 2)] ⟨1, ![R]⟩) (hφ : FKind.Formats φ)
    (hacc : acc = FKind.add.neutral φ hφ) (r : Fin R) :
    multiReduction .add [(1 : Fin 2)] ⟨1, ![R]⟩ src acc h hφ hacc (ix1 r) = ∑ k : Fin N, src (ix2 r k) :=
  (Ideal.multiReduction_add_single src acc h hφ hacc (ix1 r)).trans
    (Finset.sum_congr rfl fun k _ => congrArg src (lift_row h r k))

/-- A maximum along the columns, read at row `r`: the fold of `max`, from the accumulator's value, over that row's
    entries. -/
theorem rowMax_apply (src : FVec Ideal ⟨2, ![R, N]⟩ φ) (acc : BitVec φ.bits)
    (h : (⟨2, ![R, N]⟩ : Shape).Reduces [(1 : Fin 2)] ⟨1, ![R]⟩) (hφ : FKind.Formats φ)
    (hacc : acc = FKind.maximumf.neutral φ hφ) (r : Fin R) :
    multiReduction .maximumf [(1 : Fin 2)] ⟨1, ![R]⟩ src acc h hφ hacc (ix1 r)
      = (Finset.univ : Finset (Fin N)).fold max (Ideal.ofBits φ acc) (fun k => src (ix2 r k)) := by
  have e : src ∘ h.lift (ix1 r) = fun k : Fin N => src (ix2 r k) := funext fun k => congrArg src (lift_row h r k)
  rw [Ideal.multiReduction_maximumf_single, e]
  rfl

/-- A vector of `R` values made an `R × 1` column reads, at `(r, u)`, the value at `r`. -/
theorem shapeCast_a_a1_apply (x : (⟨1, ![R]⟩ : Shape).Idx → α) (h : (⟨1, ![R]⟩ : Shape).ShapeCasts ⟨2, ![R, 1]⟩)
    (r : Fin R) (u : Fin 1) : shapeCast ⟨2, ![R, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- An `R × 1` column broadcast along `N` columns reads, at `(r, c)`, the column's entry at row `r`. -/
theorem broadcastTo_a1_ab_apply (v : (⟨2, ![R, 1]⟩ : Shape).Idx → α) (h : (⟨2, ![R, 1]⟩ : Shape).Broadcasts ⟨2, ![R, N]⟩)
    (r : Fin R) (c : Fin N) : broadcastTo ⟨2, ![R, N]⟩ v h (ix2 r c) = v (ix2 r (0 : Fin 1)) := by
  refine broadcastTo_apply v h (ix2 r c) (ix2 r (0 : Fin 1)) fun ax => ?_
  match ax with
  | ⟨0, _⟩ =>
    show r.val = if R = 1 then 0 else r.val
    split
    · have := r.isLt; omega
    · rfl
  | ⟨1, _⟩ =>
    show (0 : ℕ) = if (1 : ℕ) = 1 then 0 else c.val
    rw [if_pos rfl]

/-- The two together: a vector of row values, made a column and broadcast along the columns, reads the row's value. -/
theorem rowSplat_apply (x : (⟨1, ![R]⟩ : Shape).Idx → α) (hc : (⟨1, ![R]⟩ : Shape).ShapeCasts ⟨2, ![R, 1]⟩)
    (hb : (⟨2, ![R, 1]⟩ : Shape).Broadcasts ⟨2, ![R, N]⟩) (r : Fin R) (c : Fin N) :
    broadcastTo ⟨2, ![R, N]⟩ (shapeCast ⟨2, ![R, 1]⟩ x hc) hb (ix2 r c) = x (ix1 r) := by
  rw [broadcastTo_a1_ab_apply, shapeCast_a_a1_apply]

/-- A matrix index whose two coordinates are known is `ix2` of them. -/
theorem eq_ix2_of_val {n0 n1 : ℕ} (i : (⟨2, ![n0, n1]⟩ : Shape).Idx) (a : Fin n0) (b : Fin n1)
    (h0 : (i (0 : Fin 2)).val = a.val) (h1 : (i (1 : Fin 2)).val = b.val) : i = ix2 a b := by
  funext c
  apply Fin.ext
  match c with
  | ⟨0, _⟩ => exact h0
  | ⟨1, _⟩ => exact h1

/-- With no batch axes and the rows the left operand's one free axis, the left index's row is the result index's row,
    whatever the contraction position. -/
theorem lhsIdx_row (d : DotDims ⟨2, ![R, K]⟩ ⟨2, ![K, N]⟩ ⟨2, ![R, N]⟩)
    (hln : d.lhsNonContracting = [(0 : Fin 2)]) (hlb : d.lhsBatch = [])
    (j : (⟨2, ![R, N]⟩ : Shape).Idx) (q : d.contr.Idx) : (d.lhsIdx j q (0 : Fin 2)).val = (j (0 : Fin 2)).val := by
  have hnb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hnb, dif_pos hn]
  simp only [Fin.val_cast]
  have key : ∀ (p p' : ℕ) (hp : p < 2) (hp' : p' < 2), p = p' → (j ⟨p, hp⟩).val = (j ⟨p', hp'⟩).val :=
    fun p p' hp hp' e => by subst e; rfl
  exact key _ _ _ _ (by simp [hlb, hln])

/-- With no batch axes, the rows the left operand's one free axis and the columns the right operand's, the right index's
    column is the result index's column, whatever the contraction position. -/
theorem rhsIdx_col (d : DotDims ⟨2, ![R, K]⟩ ⟨2, ![K, N]⟩ ⟨2, ![R, N]⟩)
    (hln : d.lhsNonContracting = [(0 : Fin 2)]) (hrn : d.rhsNonContracting = [(1 : Fin 2)])
    (hlb : d.lhsBatch = []) (hrb : d.rhsBatch = [])
    (j : (⟨2, ![R, N]⟩ : Shape).Idx) (q : d.contr.Idx) : (d.rhsIdx j q (1 : Fin 2)).val = (j (1 : Fin 2)).val := by
  have hnb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hnb, dif_pos hn]
  simp only [Fin.val_cast]
  have key : ∀ (p p' : ℕ) (hp : p < 2) (hp' : p' < 2), p = p' → (j ⟨p, hp⟩).val = (j ⟨p', hp'⟩).val :=
    fun p p' hp hp' e => by subst e; rfl
  exact key _ _ _ _ (by simp [hlb, hln, hrn])

/-- A plain matrix product (`R × K` by `K × N`, the left operand's columns contracted against the right operand's rows,
    no batch axes) into the zero accumulator, read at `(r, j)`: the sum over `k` of row `r` of the left operand against
    column `j` of the right. -/
theorem matmul_row_apply (d : DotDims ⟨2, ![R, K]⟩ ⟨2, ![K, N]⟩ ⟨2, ![R, N]⟩)
    (hlc : d.lhsContracting = [(1 : Fin 2)]) (hrc : d.rhsContracting = [(0 : Fin 2)])
    (hln : d.lhsNonContracting = [(0 : Fin 2)]) (hrn : d.rhsNonContracting = [(1 : Fin 2)])
    (hlb : d.lhsBatch = []) (hrb : d.rhsBatch = [])
    (prec : Option ContractPrecision) (lhs : FVec Ideal ⟨2, ![R, K]⟩ φ₁) (rhs : FVec Ideal ⟨2, ![K, N]⟩ φ₂)
    (r : Fin R) (j : Fin N) :
    FloatOps.matmul d prec lhs rhs (constant ⟨2, ![R, N]⟩ .f32 0x00000000#32) (ix2 r j)
      = ∑ k : Fin K, lhs (ix2 r k) * rhs (ix2 k j) := by
  have hr : d.contr.rank = 1 := by rw [d.rank_contr, hlc]; rfl
  have hs : d.contr.size ⟨0, by omega⟩ = K := by
    have h0 : 0 < d.lhsContracting.length := by rw [hlc]; exact Nat.one_pos
    have e1 : d.lhsContracting[0] = (1 : Fin 2) := by simp [hlc]
    exact (d.size_contr 0 h0).trans (by rw [e1]; rfl)
  rw [Ideal.matmul_constant_zero_apply]
  refine ((contrEquiv1 d K hr hs).symm.sum_comp _).symm.trans (Finset.sum_congr rfl fun k _ => ?_)
  have hL : d.lhsIdx (ix2 r j) ((contrEquiv1 d K hr hs).symm k) = ix2 r k :=
    eq_ix2_of_val _ r k (lhsIdx_row d hln hlb _ _)
      ((d.lhsIdx_val_of_single hlc _ _).trans (contrEquiv1_symm_val d K hr hs k))
  have hR : d.rhsIdx (ix2 r j) ((contrEquiv1 d K hr hs).symm k) = ix2 k j :=
    eq_ix2_of_val _ k j ((d.rhsIdx_val_of_single hrc _ _).trans (contrEquiv1_symm_val d K hr hs k))
      (rhsIdx_col d hln hrn hlb hrb _ _)
  show lhs (d.lhsIdx (ix2 r j) ((contrEquiv1 d K hr hs).symm k)) * rhs (d.rhsIdx (ix2 r j) ((contrEquiv1 d K hr hs).symm k)) = _
  rw [hL, hR]

end Cert.RowOps

end
-- ==== Proof.MatmulMath.lean ====
/-
  A matrix product computed block by block. The product of a 2048 × 4096 matrix A and a 4096 × 12288 matrix B is
  cut along the contraction axis into four steps of 1024: entry (r, c) of the product, the sum over all 4096
  contraction positions of A(r, κ) · B(κ, c), is the sum over the four steps k of the sum over the 1024 positions kk
  of the step of A(r, 1024 k + kk) · B(1024 k + kk, c). Only the associativity and commutativity of + on the extended
  reals are used: a sum over 4096 positions is regrouped as a sum over 4 × 1024 pairs.
  Beside it, the two payloads of the kernel's body read at an element: the block the accumulator is reset to is zero
  everywhere; the update adds to the accumulator's entry (p, q) the sum over the step's 1024 positions of the left
  block's row p against the right block's column q (rounding the operands to a narrower format is the identity on
  ideal values). And the reference's host product read at an element is the full sum.
-/
import proofs.«104308_j67190468378873_1_alg».proof.Proof.LibRowOps
import proofs.«104308_j67190468378873_1_alg».proof.Proof.Gen.KernelIdeal.Skeleton
import proofs.«104308_j67190468378873_1_alg».proof.Proof.Gen.ReferenceIdeal
import Idealize.ShloMosaic.Lib.ValueIdx
import Idealize.ShloMosaic.Lib.Pipeline.Value
import Idealize.ShloMosaic.PureOps.Ideal.Laws
import Mathlib.Data.Fintype.BigOperators

set_option maxRecDepth 16384

noncomputable section

open scoped BigOperators

namespace Cert.KernelIdeal.Hand

open Idealize.ShloMosaic Idealize.ShloMosaic.ValueIdx
open Cert.KernelIdeal Cert.KernelIdeal.Gen

/-! ## Regrouping the contraction -/

/-- A contraction position κ < 4096 is a step k < 4 and a position kk < 1024 inside it, κ = 1024 k + kk. -/
def stepEquiv : Fin 4 × Fin 1024 ≃ Fin 4096 where
  toFun x := ⟨1024 * x.1.val + x.2.val, by omega⟩
  invFun κ := (⟨κ.val / 1024, by omega⟩, ⟨κ.val % 1024, by omega⟩)
  left_inv x := by
    refine Prod.ext (Fin.ext ?_) (Fin.ext ?_)
    · show (1024 * x.1.val + x.2.val) / 1024 = x.1.val
      omega
    · show (1024 * x.1.val + x.2.val) % 1024 = x.2.val
      omega
  right_inv κ := by
    refine Fin.ext ?_
    show 1024 * (κ.val / 1024) + κ.val % 1024 = κ.val
    omega

/-- A sum over the 4096 contraction positions is the sum over the four steps of the sums over each step's 1024
    positions. -/
theorem sum_blocks (f : Fin 4096 → EReal) :
    ∑ κ : Fin 4096, f κ = ∑ k : Fin 4, ∑ kk : Fin 1024, f ⟨1024 * k.val + kk.val, by omega⟩ :=
  (stepEquiv.sum_comp f).symm.trans (Fintype.sum_prod_type fun x : Fin 4 × Fin 1024 => f (stepEquiv x))

/-! ## The body's payloads at an element -/

/-- The block the accumulator is reset to at a first contraction step is zero everywhere. -/
theorem pay1_apply (j : S512x1024.Idx) : (k0_pay1 (F := Ideal)) j = (0 : EReal) := by
  unfold k0_pay1
  show shapeCast S512x1024 (broadcast S512x1024 (Scalar.ofBits .f32 0x00000000#32 : Ideal .f32)) shapeCasts_S512x1024_S512x1024 j = 0
  rw [shapeCast_self, broadcast_apply]
  exact Ideal.ofBits_zero_f32

/-- The update at an element: the accumulator's entry plus the sum over the step's 1024 contraction positions of the
    left block's row against the right block's column. -/
theorem pay2_apply (x0 : Vec Ideal S512x1024 .f32) (x1 : Vec Ideal S1024x1024 .f32) (s : Vec Ideal S512x1024 .f32)
    (p : Fin 512) (q : Fin 1024) :
    k0_pay2 (F := Ideal) x0 x1 s (ix2 p q) = s (ix2 p q) + ∑ kk : Fin 1024, x0 (ix2 p kk) * x1 (ix2 kk q) := by
  unfold k0_pay2
  show shapeCast S512x1024
      (addf (F := Ideal) s (matmul dot_S512x1024_S1024x1024_S512x1024_1_0_0_1_n_n none
        (truncf .bf16 x0 bitsLt_bf16_f32) (truncf .bf16 x1 bitsLt_bf16_f32) (constant S512x1024 .f32 0x00000000#32)))
      shapeCasts_S512x1024_S512x1024 (ix2 p q) = _
  rw [shapeCast_self]
  refine (addf_apply _ _ _).trans (congrArg (s (ix2 p q) + ·) ?_)
  exact Cert.RowOps.matmul_row_apply dot_S512x1024_S1024x1024_S512x1024_1_0_0_1_n_n rfl rfl rfl rfl rfl rfl none
    (truncf .bf16 x0 bitsLt_bf16_f32) (truncf .bf16 x1 bitsLt_bf16_f32) p q

/-! ## The reference's product at an element -/

/-- The host's product of the two whole matrices, read at (i, j): the sum over all 4096 contraction positions. -/
theorem ref_dot_apply (A : Vec Ideal Cert.ReferenceIdeal.S2048x4096 .f32) (B : Vec Ideal Cert.ReferenceIdeal.S4096x12288 .f32)
    (i : Fin 2048) (j : Fin 12288) :
    Host.dotGeneral (F := Ideal) (φ₁ := .f32) (φ₂ := .f32) Cert.ReferenceIdeal.dot_S2048x4096_S4096x12288_S2048x12288_1_0_0_1_n_n none A B (ix2 i j)
      = ∑ κ : Fin 4096, A (ix2 i κ) * B (ix2 κ j) :=
  (Ideal.dotGeneral_apply Cert.ReferenceIdeal.dot_S2048x4096_S4096x12288_S2048x12288_1_0_0_1_n_n none .single A B (ix2 i j)).trans
    ((Ideal.matmul_constant_zero_apply Cert.ReferenceIdeal.dot_S2048x4096_S4096x12288_S2048x12288_1_0_0_1_n_n none A B (ix2 i j)).symm.trans
      (Cert.RowOps.matmul_row_apply Cert.ReferenceIdeal.dot_S2048x4096_S4096x12288_S2048x12288_1_0_0_1_n_n rfl rfl rfl rfl rfl rfl none A B i j))

end Cert.KernelIdeal.Hand

end
-- ==== Proof.KI.Value.lean ====
/-
  The value the kernel's region leaves in its output array: the whole product. Grid point t = (i·12 + j)·4 + k works
  on output block (i, j) (rows 512 i …, columns 1024 j …) at contraction step k: it reads the 512 × 1024 block (i, k)
  of the left matrix A and the 1024 × 1024 block (k, j) of the right matrix B. The accumulator, zero before step 0,
  gains at each step the product of the two blocks, so after step 3 its entry (p, q) is the sum over the four steps k
  and the 1024 positions kk of a step of A(512 i + p, 1024 k + kk) · B(1024 k + kk, 1024 j + q): entry
  (512 i + p, 1024 j + q) of the product A · B, the contraction regrouped into four steps. The points with k = 3, the
  only ones that write their block back, cover the output array (row r, column c lie in the block of the point with
  i = r / 512, j = c / 1024, k = 3), so after the region the array holds A · B: what the reference's one host product
  computes.
-/
import proofs.«104308_j67190468378873_1_alg».proof.Proof.KI.Base
import proofs.«104308_j67190468378873_1_alg».proof.Proof.MatmulMath
import Idealize.ShloMosaic.Lib.Pipeline.Value

set_option maxRecDepth 16384

noncomputable section

open scoped BigOperators

namespace Cert.KernelIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable (m : (ℓ : Loc nD τ sig) → Buf (Elt Ideal) ℓ)

/-! ## The two matrices, and where a point's blocks sit in them -/

/-- The left matrix A (2048 × 4096) and the right matrix B (4096 × 12288) as the region finds them. -/
abbrev Aarr (c : Dev nD) : Vec Ideal S2048x4096 .f32 := V m c main_arg1
abbrev Barr (c : Dev nD) : Vec Ideal S4096x12288 .f32 := V m c main_arg7

/-- The block indices of the three windows at point t = (i·12 + j)·4 + k: A's block is (i, k), B's is (k, j), the
    output's is (i, j), with i = t / 48, j = t / 4 mod 12, k = t mod 4. -/
theorem idx_facts : ∀ t : Fin cfg0.N,
    win0_0.index t (0 : Fin 2) = t.val / 48 ∧ win0_0.index t (1 : Fin 2) = t.val % 4
    ∧ win0_1.index t (0 : Fin 2) = t.val % 4 ∧ win0_1.index t (1 : Fin 2) = t.val / 4 % 12
    ∧ win0_2.index t (0 : Fin 2) = t.val / 48 ∧ win0_2.index t (1 : Fin 2) = t.val / 4 % 12 :=
  (by decide +kernel : ∀ t : Fin grid0.N, _)

/-- Entry (p, kk) of A's block at point t is A(512 i + p, 1024 k + kk). -/
theorem ablk_apply (c : Dev nD) (t : Fin cfg0.N) (p : Fin 512) (kk : Fin 1024) (r : Fin 2048) (κ : Fin 4096)
    (hr : r.val = 512 * (t.val / 48) + p.val) (hκ : κ.val = 1024 * (t.val % 4) + kk.val) :
    ablk m c t (ix2 p kk) = Aarr m c (ix2 r κ) := by
  obtain ⟨e0, e1, e2, e3, e4, e5⟩ := idx_facts t
  show iblk m c 0 t (ix2 p kk) = V m c main_arg1 (ix2 r κ)
  unfold iblk
  rw [View.read_apply]
  show V m c main_arg1 (((cfg0.win 0).blk t).view.emb (ix2 p kk)) = V m c main_arg1 (ix2 r κ)
  have e : ((cfg0.win 0).blk t).view.emb (ix2 p kk) = ix2 r κ := by
    funext a; apply Fin.ext
    match a with
    | ⟨0, _⟩ => show win0_0.index t (0 : Fin 2) * 512 + 1 * p.val = r.val; omega
    | ⟨1, _⟩ => show win0_0.index t (1 : Fin 2) * 1024 + 1 * kk.val = κ.val; omega
  rw [e]

/-- Entry (kk, q) of B's block at point t is B(1024 k + kk, 1024 j + q). -/
theorem bblk_apply (c : Dev nD) (t : Fin cfg0.N) (kk : Fin 1024) (q : Fin 1024) (κ : Fin 4096) (s : Fin 12288)
    (hκ : κ.val = 1024 * (t.val % 4) + kk.val) (hs : s.val = 1024 * (t.val / 4 % 12) + q.val) :
    bblk m c t (ix2 kk q) = Barr m c (ix2 κ s) := by
  obtain ⟨e0, e1, e2, e3, e4, e5⟩ := idx_facts t
  show iblk m c 1 t (ix2 kk q) = V m c main_arg7 (ix2 κ s)
  unfold iblk
  rw [View.read_apply]
  show V m c main_arg7 (((cfg0.win 1).blk t).view.emb (ix2 kk q)) = V m c main_arg7 (ix2 κ s)
  have e : ((cfg0.win 1).blk t).view.emb (ix2 kk q) = ix2 κ s := by
    funext a; apply Fin.ext
    match a with
    | ⟨0, _⟩ => show win0_1.index t (0 : Fin 2) * 1024 + 1 * kk.val = κ.val; omega
    | ⟨1, _⟩ => show win0_1.index t (1 : Fin 2) * 1024 + 1 * q.val = s.val; omega
  rw [e]

/-! ## The accumulation -/

/-- What one point adds to the accumulator's entry (p, q): the product of its two blocks there. -/
def stepSum (c : Dev nD) (t : Fin cfg0.N) (p : Fin 512) (q : Fin 1024) : EReal :=
  ∑ kk : Fin 1024, ablk m c t (ix2 p kk) * bblk m c t (ix2 kk q)

/-- At a first contraction step the accumulator's entry is that point's product alone: zero plus it. -/
theorem acc_first_apply (c : Dev nD) (t : Fin cfg0.N) (h0 : t.val % 4 = 0) (p : Fin 512) (q : Fin 1024) :
    accAt m c t.val t.isLt (ix2 p q) = stepSum m c t p q := by
  rw [accAt_first m c t h0]
  refine (pay2_apply (ablk m c t) (bblk m c t) (k0_pay1 (F := Ideal)) p q).trans ?_
  rw [pay1_apply (ix2 p q)]
  exact zero_add _

/-- At every other step it is what the point before left plus the point's product. -/
theorem acc_step_apply (c : Dev nD) (n : ℕ) (hn : n + 1 < cfg0.N) (h0 : ¬(n + 1) % 4 = 0) (p : Fin 512) (q : Fin 1024) :
    accAt m c (n + 1) hn (ix2 p q) = accAt m c n (Nat.lt_of_succ_lt hn) (ix2 p q) + stepSum m c ⟨n + 1, hn⟩ p q := by
  have e : accAt m c (n + 1) hn
      = k0_pay2 (ablk m c ⟨n + 1, hn⟩) (bblk m c ⟨n + 1, hn⟩) (accAt m c n (Nat.lt_of_succ_lt hn)) := if_neg h0
  rw [e]
  exact pay2_apply (ablk m c ⟨n + 1, hn⟩) (bblk m c ⟨n + 1, hn⟩) (accAt m c n (Nat.lt_of_succ_lt hn)) p q

/-- After the fourth step of a group of four points b, b + 1, b + 2, b + 3 (b a multiple of four) the accumulator's
    entry is the sum of the four points' products. -/
theorem acc_group_apply (c : Dev nD) (b : ℕ) (hb : b % 4 = 0) (h3 : b + 1 + 1 + 1 < cfg0.N) (p : Fin 512) (q : Fin 1024) :
    accAt m c (b + 1 + 1 + 1) h3 (ix2 p q)
      = stepSum m c ⟨b, Nat.lt_of_succ_lt (Nat.lt_of_succ_lt (Nat.lt_of_succ_lt h3))⟩ p q
        + stepSum m c ⟨b + 1, Nat.lt_of_succ_lt (Nat.lt_of_succ_lt h3)⟩ p q
        + stepSum m c ⟨b + 1 + 1, Nat.lt_of_succ_lt h3⟩ p q
        + stepSum m c ⟨b + 1 + 1 + 1, h3⟩ p q := by
  rw [acc_step_apply m c (b + 1 + 1) h3 (by omega) p q,
    acc_step_apply m c (b + 1) (Nat.lt_of_succ_lt h3) (by omega) p q,
    acc_step_apply m c b (Nat.lt_of_succ_lt (Nat.lt_of_succ_lt h3)) (by omega) p q]
  exact congrArg (· + stepSum m c ⟨b + 1, Nat.lt_of_succ_lt (Nat.lt_of_succ_lt h3)⟩ p q
      + stepSum m c ⟨b + 1 + 1, Nat.lt_of_succ_lt h3⟩ p q + stepSum m c ⟨b + 1 + 1 + 1, h3⟩ p q)
    (acc_first_apply m c ⟨b, Nat.lt_of_succ_lt (Nat.lt_of_succ_lt (Nat.lt_of_succ_lt h3))⟩ hb p q)

/-! ## The accumulator after a group's last step is the product's entry -/

/-- Entry (r, s) of the product A · B: the sum over all 4096 contraction positions. -/
def prodAt (c : Dev nD) (r : Fin 2048) (s : Fin 12288) : EReal :=
  ∑ κ : Fin 4096, Aarr m c (ix2 r κ) * Barr m c (ix2 κ s)

/-- The same sum taken step by step: four steps of 1024 positions. -/
theorem prodAt_eq_steps (c : Dev nD) (r : Fin 2048) (s : Fin 12288) :
    prodAt m c r s = ∑ k : Fin 4, ∑ kk : Fin 1024,
      Aarr m c (ix2 r ⟨1024 * k.val + kk.val, by omega⟩) * Barr m c (ix2 ⟨1024 * k.val + kk.val, by omega⟩ s) :=
  sum_blocks fun κ : Fin 4096 => Aarr m c (ix2 r κ) * Barr m c (ix2 κ s)

/-- The product of the two blocks of a point at contraction step k, at (p, q), is step k's share of the product's
    entry (512 i + p, 1024 j + q). -/
theorem stepSum_eq (c : Dev nD) (t : Fin cfg0.N) (p : Fin 512) (q : Fin 1024) (r : Fin 2048) (s : Fin 12288) (k : Fin 4)
    (hr : r.val = 512 * (t.val / 48) + p.val) (hs : s.val = 1024 * (t.val / 4 % 12) + q.val) (hk : t.val % 4 = k.val) :
    stepSum m c t p q = ∑ kk : Fin 1024,
      Aarr m c (ix2 r ⟨1024 * k.val + kk.val, by omega⟩) * Barr m c (ix2 ⟨1024 * k.val + kk.val, by omega⟩ s) := by
  unfold stepSum
  refine Finset.sum_congr rfl fun kk _ => ?_
  rw [ablk_apply m c t p kk r ⟨1024 * k.val + kk.val, by omega⟩ hr
      (by show 1024 * k.val + kk.val = 1024 * (t.val % 4) + kk.val; rw [hk]),
    bblk_apply m c t kk q ⟨1024 * k.val + kk.val, by omega⟩ s
      (by show 1024 * k.val + kk.val = 1024 * (t.val % 4) + kk.val; rw [hk]) hs]

/-- After a point at the last contraction step the accumulator's entry (p, q) is the product's entry
    (512 i + p, 1024 j + q). -/
theorem acc_last_apply (c : Dev nD) (t : Fin cfg0.N) (h3 : t.val % 4 = 3) (p : Fin 512) (q : Fin 1024)
    (r : Fin 2048) (s : Fin 12288) (hr : r.val = 512 * (t.val / 48) + p.val) (hs : s.val = 1024 * (t.val / 4 % 12) + q.val) :
    accAt m c t.val t.isLt (ix2 p q) = prodAt m c r s := by
  obtain ⟨n, hn⟩ := t
  obtain ⟨b, hb⟩ : ∃ b, n = b + 1 + 1 + 1 := ⟨n - 3, by have h : n % 4 = 3 := h3; omega⟩
  subst hb
  have h3' : (b + 1 + 1 + 1) % 4 = 3 := h3
  have hr' : r.val = 512 * ((b + 1 + 1 + 1) / 48) + p.val := hr
  have hs' : s.val = 1024 * ((b + 1 + 1 + 1) / 4 % 12) + q.val := hs
  have hb4 : b % 4 = 0 := by omega
  show accAt m c (b + 1 + 1 + 1) hn (ix2 p q) = prodAt m c r s
  rw [acc_group_apply m c b hb4 hn p q, prodAt_eq_steps, Fin.sum_univ_four,
    stepSum_eq m c ⟨b, Nat.lt_of_succ_lt (Nat.lt_of_succ_lt (Nat.lt_of_succ_lt hn))⟩ p q r s 0
      (by show r.val = 512 * (b / 48) + p.val; omega) (by show s.val = 1024 * (b / 4 % 12) + q.val; omega)
      (by show b % 4 = 0; omega),
    stepSum_eq m c ⟨b + 1, Nat.lt_of_succ_lt (Nat.lt_of_succ_lt hn)⟩ p q r s 1
      (by show r.val = 512 * ((b + 1) / 48) + p.val; omega) (by show s.val = 1024 * ((b + 1) / 4 % 12) + q.val; omega)
      (by show (b + 1) % 4 = 1; omega),
    stepSum_eq m c ⟨b + 1 + 1, Nat.lt_of_succ_lt hn⟩ p q r s 2
      (by show r.val = 512 * ((b + 1 + 1) / 48) + p.val; omega) (by show s.val = 1024 * ((b + 1 + 1) / 4 % 12) + q.val; omega)
      (by show (b + 1 + 1) % 4 = 2; omega),
    stepSum_eq m c ⟨b + 1 + 1 + 1, hn⟩ p q r s 3 hr' hs' (by show (b + 1 + 1 + 1) % 4 = 3; omega)]

/-! ## From blocks to the array -/

/-- The whole product A · B as the contents of the output array: the reference's one host product of the two matrices. -/
abbrev Gprod (c : Dev nD) : Vec Ideal S2048x12288 .f32 :=
  Host.dotGeneral (F := Ideal) (φ₁ := .f32) (φ₂ := .f32)
    Cert.ReferenceIdeal.dot_S2048x4096_S4096x12288_S2048x12288_1_0_0_1_n_n none (Aarr m c) (Barr m c)

theorem Gprod_apply (c : Dev nD) (r : Fin 2048) (s : Fin 12288) : Gprod m c (ix2 r s) = prodAt m c r s :=
  ref_dot_apply (Aarr m c) (Barr m c) r s

/-- What a point at the last contraction step writes back is its block of the product. -/
theorem flushed_eq (c : Dev nD) (dat : Dat τ (Elt Ideal) Unit ℕ (UR sig nD τ) ℕ cfg0 c)
    (hafter : ∀ t, dat.after 2 t = accAt m c t.val t.isLt) (t : Fin cfg0.N) (hf : (cfg0.win 2).flush t = true) :
    dat.flushed 2 t = ((cfg0.win 2).blk t).view.read (Elt Ideal) (Gprod m c) := by
  have h3 : t.val % 4 = 3 := (flush0_2 t).mp hf
  have ht : t.val < 192 := Nat.lt_of_lt_of_eq t.isLt N_0
  obtain ⟨e0, e1, e2, e3, e4, e5⟩ := idx_facts t
  show (cfg0.win 2).cut (grid0.coords t) (dat.after 2 t) = _
  rw [hafter t]
  funext y
  obtain ⟨p, q, rfl⟩ : ∃ (p : Fin 512) (q : Fin 1024), y = ix2 p q := ⟨y 0, y 1, eq_ix2 (n0 := 512) (n1 := 1024) y⟩
  rw [View.read_apply]
  show accAt m c t.val t.isLt (ix2 p q) = Gprod m c (((cfg0.win 2).blk t).view.emb (ix2 p q))
  have e : ((cfg0.win 2).blk t).view.emb (ix2 p q)
      = ix2 (⟨512 * (t.val / 48) + p.val, by omega⟩ : Fin 2048) (⟨1024 * (t.val / 4 % 12) + q.val, by omega⟩ : Fin 12288) := by
    funext a; apply Fin.ext
    match a with
    | ⟨0, _⟩ => show win0_2.index t (0 : Fin 2) * 512 + 1 * p.val = 512 * (t.val / 48) + p.val; omega
    | ⟨1, _⟩ => show win0_2.index t (1 : Fin 2) * 1024 + 1 * q.val = 1024 * (t.val / 4 % 12) + q.val; omega
  rw [e, Gprod_apply]
  exact acc_last_apply m c t h3 p q _ _ rfl rfl

/-- An entry of the output array lies in a point's block iff each coordinate lies in the block's range on its axis. -/
theorem mem_blk (t : Fin cfg0.N) (i : S2048x12288.Idx) :
    i ∈ ((cfg0.win 2).blk t).view.set ↔ ∀ a : Fin 2, win0_2.index t a * S512x1024.size a ≤ (i a).val
      ∧ (i a).val < win0_2.index t a * S512x1024.size a + S512x1024.size a := by
  show i ∈ ((View.whole main_v6).slice (win0_2.rect t)).set ↔ _
  rw [View.set_slice_whole, Rect.mem_set_unit]
  exact Iff.rfl

/-- The points at the last contraction step cover the output array: row r, column s lie in the block of the point
    with i = r / 512, j = s / 1024, k = 3. -/
theorem cover (i : S2048x12288.Idx) :
    ∃ t : Fin cfg0.N, (cfg0.win 2).flush t = true ∧ i ∈ ((cfg0.win 2).blk t).view.set := by
  have hi0 : (i 0).val < 2048 := (i 0).isLt
  have hi1 : (i 1).val < 12288 := (i 1).isLt
  obtain ⟨t, htv⟩ : ∃ t : Fin cfg0.N, t.val = ((i 0).val / 512 * 12 + (i 1).val / 1024) * 4 + 3 :=
    ⟨⟨((i 0).val / 512 * 12 + (i 1).val / 1024) * 4 + 3, Nat.lt_of_lt_of_eq (by omega) N_0.symm⟩, rfl⟩
  obtain ⟨e0, e1, e2, e3, e4, e5⟩ := idx_facts t
  refine ⟨t, (flush0_2 t).mpr (by omega), ?_⟩
  rw [mem_blk]
  intro a
  match a with
  | ⟨0, _⟩ =>
    show win0_2.index t (0 : Fin 2) * 512 ≤ (i 0).val ∧ (i 0).val < win0_2.index t (0 : Fin 2) * 512 + 512
    omega
  | ⟨1, _⟩ =>
    show win0_2.index t (1 : Fin 2) * 1024 ≤ (i 1).val ∧ (i 1).val < win0_2.index t (1 : Fin 2) * 1024 + 1024
    omega

/-- After the region the output array holds the product of the two matrices as the launch found them: the
    reference's host product. -/
theorem final_v6 (c : Dev nD) (dat : Dat τ (Elt Ideal) Unit ℕ (UR sig nD τ) ℕ cfg0 c)
    (hA : ∀ w, dat.A w = V m c (Pipeline.arrRef spec0 w)) (hafter : ∀ t, dat.after 2 t = accAt m c t.val t.isLt)
    (hV1 : V m c main_arg1 = m ((c : Thread nD τ).loc main_arg1)) (hV7 : V m c main_arg7 = m ((c : Thread nD τ).loc main_arg7)) :
    dat.arrAt 2 cfg0.N = (Host.dotGeneral (F := Ideal) (φ₁ := .f32) (φ₂ := .f32)
      Cert.ReferenceIdeal.dot_S2048x4096_S4096x12288_S2048x12288_1_0_0_1_n_n none
      (m ((c : Thread nD τ).loc main_arg1)) (m ((c : Thread nD τ).loc main_arg7)) : (⟨S2048x12288, .f32⟩ : BufTy).Contents (Elt Ideal)) := by
  rw [dat.arrAt_eq_of_cover 2 (Gprod m c) (fun t hf => flushed_eq m c dat hafter t hf) cover]
  show Host.dotGeneral (F := Ideal) (φ₁ := .f32) (φ₂ := .f32)
    Cert.ReferenceIdeal.dot_S2048x4096_S4096x12288_S2048x12288_1_0_0_1_n_n none (V m c main_arg1) (V m c main_arg7) = _
  rw [hV1, hV7]

end Cert.KernelIdeal.Hand

end
-- ==== Proof.TailFn.lean ====
/-
  Everything the two programs do after the matrix product, as ONE function of the product and of the argument
  arrays: the reshape of the product to rows, the gate (a three-column product of the features, gathered, plus a
  gathered bias, through the logistic function), the gathered rows of the product plus gathered rows of a table,
  scaled by the gate, scatter-added into a zero array at the concatenated row indices, and rectified.
  The reference program's result is this function of the reference's own product (`ref_tail`): the two terms are
  the same text over two namespaces whose shapes, dimension records and facts are equal by unfolding.
-/
import proofs.«104308_j67190468378873_1_alg».proof.Proof.Gen.KernelIdeal.Launch
import proofs.«104308_j67190468378873_1_alg».proof.Proof.Gen.ReferenceIdeal.Run
import Idealize.ShloMosaic.Lib.StableHlo.Run

set_option maxRecDepth 16384

noncomputable section

namespace Cert.KernelIdeal.Hand

open Idealize.ShloMosaic Idealize.ShloMosaic.TcCoe
open Idealize.SL.Sem
open Cert.KernelIdeal.Gen

variable {F : FTy → Type} [FloatOps F]

/-- The lines after the matrix product, composed: the result as a function of the product `X` and of the six
    argument arrays those lines read. -/
def tailFn (X : (⟨S2048x12288, .f32⟩ : BufTy).Contents (Elt F)) (a1 : (⟨S2048x4096, .f32⟩ : BufTy).Contents (Elt F))
    (a2 : (⟨S2048, .i32⟩ : BufTy).Contents (Elt F)) (a3 : (⟨S2048x3, .i32⟩ : BufTy).Contents (Elt F))
    (a8 : (⟨S4096x3, .f32⟩ : BufTy).Contents (Elt F)) (a9 : (⟨S81x4096, .f32⟩ : BufTy).Contents (Elt F))
    (a10 : (⟨S81x1, .f32⟩ : BufTy).Contents (Elt F)) : (⟨S2048x4096, .f32⟩ : BufTy).Contents (Elt F) :=
  maximumf (Host.scatterAdd scatter_S2048x4096_S4608x1_S4608x4096_1_0_0_1 (broadcastInDim S2048x4096 ![] bcast_S_S2048x4096 (constant S_ .f32 0x00000000#32)) (broadcastInDim S4608x1 ![0] bcast_S4608_S4608x1_0 (concatenate S4608 0 [⟨S1280, (shapeCast _ (extractStridedSlice S1280x1 ![0, 1] (shapeCast _ (extractStridedSlice S64x20x3 ![0, 0, 0] (shapeCast _ a3 shapeCasts_S2048x3_S64x32x3) slices_S64x32x3_S64x20x3_0_0_0) shapeCasts_S64x20x3_S1280x3) slices_S1280x3_S1280x1_0_1) shapeCasts_S1280x1_S1280)⟩, ⟨S1280, (shapeCast _ (extractStridedSlice S1280x1 ![0, 2] (shapeCast _ (extractStridedSlice S64x20x3 ![0, 0, 0] (shapeCast _ a3 shapeCasts_S2048x3_S64x32x3) slices_S64x32x3_S64x20x3_0_0_0) shapeCasts_S64x20x3_S1280x3) slices_S1280x3_S1280x1_0_2) shapeCasts_S1280x1_S1280)⟩, ⟨S2048, (iotaInDim S2048 32 0)⟩] concatenates_S1280_S1280_S2048_S4608_d0)) (mulf (broadcastInDim S4608x4096 ![0, 1] bcast_S4608x1_S4608x4096_0_1 (broadcastInDim S4608x1 ![0] bcast_S4608_S4608x1_0 (Host.divf (broadcastInDim S4608 ![] bcast_S_S4608 (constant S_ .f32 0x3F800000#32)) (addf (broadcastInDim S4608 ![] bcast_S_S4608 (constant S_ .f32 0x3F800000#32)) (Host.exp (Host.negf (addf (Host.gather gather_S6144_S4608x1_S4608_n_0_n_n_0_1_1 (shapeCast _ (Host.dotGeneral dot_S2048x4096_S4096x3_S2048x3_1_0_0_1_n_n none a1 a8) shapeCasts_S2048x3_S6144) (broadcastInDim S4608x1 ![0] bcast_S4608_S4608x1_0 (select (cmpi .slt (concatenate S4608 0 [⟨S1280, (addi (muli (shapeCast _ (extractStridedSlice S1280x1 ![0, 2] (shapeCast _ (extractStridedSlice S64x20x3 ![0, 0, 0] (shapeCast _ a3 shapeCasts_S2048x3_S64x32x3) slices_S64x32x3_S64x20x3_0_0_0) shapeCasts_S64x20x3_S1280x3) slices_S1280x3_S1280x1_0_2) shapeCasts_S1280x1_S1280) (broadcastInDim S1280 ![] bcast_S_S1280 (constantI S_ 32 3#32))) (broadcastInDim S1280 ![] bcast_S_S1280 (constantI S_ 32 0#32)))⟩, ⟨S1280, (addi (muli (shapeCast _ (extractStridedSlice S1280x1 ![0, 1] (shapeCast _ (extractStridedSlice S64x20x3 ![0, 0, 0] (shapeCast _ a3 shapeCasts_S2048x3_S64x32x3) slices_S64x32x3_S64x20x3_0_0_0) shapeCasts_S64x20x3_S1280x3) slices_S1280x3_S1280x1_0_1) shapeCasts_S1280x1_S1280) (broadcastInDim S1280 ![] bcast_S_S1280 (constantI S_ 32 3#32))) (broadcastInDim S1280 ![] bcast_S_S1280 (constantI S_ 32 1#32)))⟩, ⟨S2048, (addi (muli (iotaInDim S2048 32 0) (broadcastInDim S2048 ![] bcast_S_S2048 (constantI S_ 32 3#32))) (broadcastInDim S2048 ![] bcast_S_S2048 (constantI S_ 32 2#32)))⟩] concatenates_S1280_S1280_S2048_S4608_d0) (broadcastInDim S4608 ![] bcast_S_S4608 (constantI S_ 32 0#32))) (addi (concatenate S4608 0 [⟨S1280, (addi (muli (shapeCast _ (extractStridedSlice S1280x1 ![0, 2] (shapeCast _ (extractStridedSlice S64x20x3 ![0, 0, 0] (shapeCast _ a3 shapeCasts_S2048x3_S64x32x3) slices_S64x32x3_S64x20x3_0_0_0) shapeCasts_S64x20x3_S1280x3) slices_S1280x3_S1280x1_0_2) shapeCasts_S1280x1_S1280) (broadcastInDim S1280 ![] bcast_S_S1280 (constantI S_ 32 3#32))) (broadcastInDim S1280 ![] bcast_S_S1280 (constantI S_ 32 0#32)))⟩, ⟨S1280, (addi (muli (shapeCast _ (extractStridedSlice S1280x1 ![0, 1] (shapeCast _ (extractStridedSlice S64x20x3 ![0, 0, 0] (shapeCast _ a3 shapeCasts_S2048x3_S64x32x3) slices_S64x32x3_S64x20x3_0_0_0) shapeCasts_S64x20x3_S1280x3) slices_S1280x3_S1280x1_0_1) shapeCasts_S1280x1_S1280) (broadcastInDim S1280 ![] bcast_S_S1280 (constantI S_ 32 3#32))) (broadcastInDim S1280 ![] bcast_S_S1280 (constantI S_ 32 1#32)))⟩, ⟨S2048, (addi (muli (iotaInDim S2048 32 0) (broadcastInDim S2048 ![] bcast_S_S2048 (constantI S_ 32 3#32))) (broadcastInDim S2048 ![] bcast_S_S2048 (constantI S_ 32 2#32)))⟩] concatenates_S1280_S1280_S2048_S4608_d0) (broadcastInDim S4608 ![] bcast_S_S4608 (constantI S_ 32 6144#32))) (concatenate S4608 0 [⟨S1280, (addi (muli (shapeCast _ (extractStridedSlice S1280x1 ![0, 2] (shapeCast _ (extractStridedSlice S64x20x3 ![0, 0, 0] (shapeCast _ a3 shapeCasts_S2048x3_S64x32x3) slices_S64x32x3_S64x20x3_0_0_0) shapeCasts_S64x20x3_S1280x3) slices_S1280x3_S1280x1_0_2) shapeCasts_S1280x1_S1280) (broadcastInDim S1280 ![] bcast_S_S1280 (constantI S_ 32 3#32))) (broadcastInDim S1280 ![] bcast_S_S1280 (constantI S_ 32 0#32)))⟩, ⟨S1280, (addi (muli (shapeCast _ (extractStridedSlice S1280x1 ![0, 1] (shapeCast _ (extractStridedSlice S64x20x3 ![0, 0, 0] (shapeCast _ a3 shapeCasts_S2048x3_S64x32x3) slices_S64x32x3_S64x20x3_0_0_0) shapeCasts_S64x20x3_S1280x3) slices_S1280x3_S1280x1_0_1) shapeCasts_S1280x1_S1280) (broadcastInDim S1280 ![] bcast_S_S1280 (constantI S_ 32 3#32))) (broadcastInDim S1280 ![] bcast_S_S1280 (constantI S_ 32 1#32)))⟩, ⟨S2048, (addi (muli (iotaInDim S2048 32 0) (broadcastInDim S2048 ![] bcast_S_S2048 (constantI S_ 32 3#32))) (broadcastInDim S2048 ![] bcast_S_S2048 (constantI S_ 32 2#32)))⟩] concatenates_S1280_S1280_S2048_S4608_d0)))) (Host.gather gather_S81x1_S4608x2_S4608_n_01_n_n_01_1_11 a10 (concatenate S4608x2 1 [⟨S4608x1, (broadcastInDim S4608x1 ![0] bcast_S4608_S4608x1_0 (select (cmpi .slt (concatenate S4608 0 [⟨S1280, (shapeCast _ (extractStridedSlice S64x20 ![0, 0] (shapeCast _ a2 shapeCasts_S2048_S64x32) slices_S64x32_S64x20_0_0) shapeCasts_S64x20_S1280)⟩, ⟨S1280, (shapeCast _ (extractStridedSlice S64x20 ![0, 0] (shapeCast _ a2 shapeCasts_S2048_S64x32) slices_S64x32_S64x20_0_0) shapeCasts_S64x20_S1280)⟩, ⟨S2048, (broadcastInDim S2048 ![] bcast_S_S2048 (constantI S_ 32 0#32))⟩] concatenates_S1280_S1280_S2048_S4608_d0) (broadcastInDim S4608 ![] bcast_S_S4608 (constantI S_ 32 0#32))) (addi (concatenate S4608 0 [⟨S1280, (shapeCast _ (extractStridedSlice S64x20 ![0, 0] (shapeCast _ a2 shapeCasts_S2048_S64x32) slices_S64x32_S64x20_0_0) shapeCasts_S64x20_S1280)⟩, ⟨S1280, (shapeCast _ (extractStridedSlice S64x20 ![0, 0] (shapeCast _ a2 shapeCasts_S2048_S64x32) slices_S64x32_S64x20_0_0) shapeCasts_S64x20_S1280)⟩, ⟨S2048, (broadcastInDim S2048 ![] bcast_S_S2048 (constantI S_ 32 0#32))⟩] concatenates_S1280_S1280_S2048_S4608_d0) (broadcastInDim S4608 ![] bcast_S_S4608 (constantI S_ 32 81#32))) (concatenate S4608 0 [⟨S1280, (shapeCast _ (extractStridedSlice S64x20 ![0, 0] (shapeCast _ a2 shapeCasts_S2048_S64x32) slices_S64x32_S64x20_0_0) shapeCasts_S64x20_S1280)⟩, ⟨S1280, (shapeCast _ (extractStridedSlice S64x20 ![0, 0] (shapeCast _ a2 shapeCasts_S2048_S64x32) slices_S64x32_S64x20_0_0) shapeCasts_S64x20_S1280)⟩, ⟨S2048, (broadcastInDim S2048 ![] bcast_S_S2048 (constantI S_ 32 0#32))⟩] concatenates_S1280_S1280_S2048_S4608_d0)))⟩, ⟨S4608x1, (broadcastInDim S4608x1 ![0] bcast_S4608_S4608x1_0 (id (broadcastInDim S4608 ![] bcast_S_S4608 (constantI S_ 32 0#32))))⟩] concatenates_S4608x1_S4608x1_S4608x2_d1))))))))) (addf (Host.gather gather_S6144x4096_S4608x1_S4608x4096_1_0_n_n_0_1_14096 (shapeCast _ X shapeCasts_S2048x12288_S6144x4096) (broadcastInDim S4608x1 ![0] bcast_S4608_S4608x1_0 (select (cmpi .slt (concatenate S4608 0 [⟨S1280, (addi (muli (shapeCast _ (extractStridedSlice S1280x1 ![0, 2] (shapeCast _ (extractStridedSlice S64x20x3 ![0, 0, 0] (shapeCast _ a3 shapeCasts_S2048x3_S64x32x3) slices_S64x32x3_S64x20x3_0_0_0) shapeCasts_S64x20x3_S1280x3) slices_S1280x3_S1280x1_0_2) shapeCasts_S1280x1_S1280) (broadcastInDim S1280 ![] bcast_S_S1280 (constantI S_ 32 3#32))) (broadcastInDim S1280 ![] bcast_S_S1280 (constantI S_ 32 0#32)))⟩, ⟨S1280, (addi (muli (shapeCast _ (extractStridedSlice S1280x1 ![0, 1] (shapeCast _ (extractStridedSlice S64x20x3 ![0, 0, 0] (shapeCast _ a3 shapeCasts_S2048x3_S64x32x3) slices_S64x32x3_S64x20x3_0_0_0) shapeCasts_S64x20x3_S1280x3) slices_S1280x3_S1280x1_0_1) shapeCasts_S1280x1_S1280) (broadcastInDim S1280 ![] bcast_S_S1280 (constantI S_ 32 3#32))) (broadcastInDim S1280 ![] bcast_S_S1280 (constantI S_ 32 1#32)))⟩, ⟨S2048, (addi (muli (iotaInDim S2048 32 0) (broadcastInDim S2048 ![] bcast_S_S2048 (constantI S_ 32 3#32))) (broadcastInDim S2048 ![] bcast_S_S2048 (constantI S_ 32 2#32)))⟩] concatenates_S1280_S1280_S2048_S4608_d0) (broadcastInDim S4608 ![] bcast_S_S4608 (constantI S_ 32 0#32))) (addi (concatenate S4608 0 [⟨S1280, (addi (muli (shapeCast _ (extractStridedSlice S1280x1 ![0, 2] (shapeCast _ (extractStridedSlice S64x20x3 ![0, 0, 0] (shapeCast _ a3 shapeCasts_S2048x3_S64x32x3) slices_S64x32x3_S64x20x3_0_0_0) shapeCasts_S64x20x3_S1280x3) slices_S1280x3_S1280x1_0_2) shapeCasts_S1280x1_S1280) (broadcastInDim S1280 ![] bcast_S_S1280 (constantI S_ 32 3#32))) (broadcastInDim S1280 ![] bcast_S_S1280 (constantI S_ 32 0#32)))⟩, ⟨S1280, (addi (muli (shapeCast _ (extractStridedSlice S1280x1 ![0, 1] (shapeCast _ (extractStridedSlice S64x20x3 ![0, 0, 0] (shapeCast _ a3 shapeCasts_S2048x3_S64x32x3) slices_S64x32x3_S64x20x3_0_0_0) shapeCasts_S64x20x3_S1280x3) slices_S1280x3_S1280x1_0_1) shapeCasts_S1280x1_S1280) (broadcastInDim S1280 ![] bcast_S_S1280 (constantI S_ 32 3#32))) (broadcastInDim S1280 ![] bcast_S_S1280 (constantI S_ 32 1#32)))⟩, ⟨S2048, (addi (muli (iotaInDim S2048 32 0) (broadcastInDim S2048 ![] bcast_S_S2048 (constantI S_ 32 3#32))) (broadcastInDim S2048 ![] bcast_S_S2048 (constantI S_ 32 2#32)))⟩] concatenates_S1280_S1280_S2048_S4608_d0) (broadcastInDim S4608 ![] bcast_S_S4608 (constantI S_ 32 6144#32))) (concatenate S4608 0 [⟨S1280, (addi (muli (shapeCast _ (extractStridedSlice S1280x1 ![0, 2] (shapeCast _ (extractStridedSlice S64x20x3 ![0, 0, 0] (shapeCast _ a3 shapeCasts_S2048x3_S64x32x3) slices_S64x32x3_S64x20x3_0_0_0) shapeCasts_S64x20x3_S1280x3) slices_S1280x3_S1280x1_0_2) shapeCasts_S1280x1_S1280) (broadcastInDim S1280 ![] bcast_S_S1280 (constantI S_ 32 3#32))) (broadcastInDim S1280 ![] bcast_S_S1280 (constantI S_ 32 0#32)))⟩, ⟨S1280, (addi (muli (shapeCast _ (extractStridedSlice S1280x1 ![0, 1] (shapeCast _ (extractStridedSlice S64x20x3 ![0, 0, 0] (shapeCast _ a3 shapeCasts_S2048x3_S64x32x3) slices_S64x32x3_S64x20x3_0_0_0) shapeCasts_S64x20x3_S1280x3) slices_S1280x3_S1280x1_0_1) shapeCasts_S1280x1_S1280) (broadcastInDim S1280 ![] bcast_S_S1280 (constantI S_ 32 3#32))) (broadcastInDim S1280 ![] bcast_S_S1280 (constantI S_ 32 1#32)))⟩, ⟨S2048, (addi (muli (iotaInDim S2048 32 0) (broadcastInDim S2048 ![] bcast_S_S2048 (constantI S_ 32 3#32))) (broadcastInDim S2048 ![] bcast_S_S2048 (constantI S_ 32 2#32)))⟩] concatenates_S1280_S1280_S2048_S4608_d0)))) (Host.gather gather_S81x4096_S4608x1_S4608x4096_1_0_n_n_0_1_14096 a9 (broadcastInDim S4608x1 ![0] bcast_S4608_S4608x1_0 (select (cmpi .slt (concatenate S4608 0 [⟨S1280, (shapeCast _ (extractStridedSlice S64x20 ![0, 0] (shapeCast _ a2 shapeCasts_S2048_S64x32) slices_S64x32_S64x20_0_0) shapeCasts_S64x20_S1280)⟩, ⟨S1280, (shapeCast _ (extractStridedSlice S64x20 ![0, 0] (shapeCast _ a2 shapeCasts_S2048_S64x32) slices_S64x32_S64x20_0_0) shapeCasts_S64x20_S1280)⟩, ⟨S2048, (broadcastInDim S2048 ![] bcast_S_S2048 (constantI S_ 32 0#32))⟩] concatenates_S1280_S1280_S2048_S4608_d0) (broadcastInDim S4608 ![] bcast_S_S4608 (constantI S_ 32 0#32))) (addi (concatenate S4608 0 [⟨S1280, (shapeCast _ (extractStridedSlice S64x20 ![0, 0] (shapeCast _ a2 shapeCasts_S2048_S64x32) slices_S64x32_S64x20_0_0) shapeCasts_S64x20_S1280)⟩, ⟨S1280, (shapeCast _ (extractStridedSlice S64x20 ![0, 0] (shapeCast _ a2 shapeCasts_S2048_S64x32) slices_S64x32_S64x20_0_0) shapeCasts_S64x20_S1280)⟩, ⟨S2048, (broadcastInDim S2048 ![] bcast_S_S2048 (constantI S_ 32 0#32))⟩] concatenates_S1280_S1280_S2048_S4608_d0) (broadcastInDim S4608 ![] bcast_S_S4608 (constantI S_ 32 81#32))) (concatenate S4608 0 [⟨S1280, (shapeCast _ (extractStridedSlice S64x20 ![0, 0] (shapeCast _ a2 shapeCasts_S2048_S64x32) slices_S64x32_S64x20_0_0) shapeCasts_S64x20_S1280)⟩, ⟨S1280, (shapeCast _ (extractStridedSlice S64x20 ![0, 0] (shapeCast _ a2 shapeCasts_S2048_S64x32) slices_S64x32_S64x20_0_0) shapeCasts_S64x20_S1280)⟩, ⟨S2048, (broadcastInDim S2048 ![] bcast_S_S2048 (constantI S_ 32 0#32))⟩] concatenates_S1280_S1280_S2048_S4608_d0))))))) (broadcastInDim S2048x4096 ![] bcast_S_S2048x4096 (constant S_ .f32 0x00000000#32))

set_option maxHeartbeats 4000000 in
/-- The reference's result is the tail function of the reference's matrix product and arguments. -/
theorem ref_tail (m' : (ℓ : Loc Cert.ReferenceIdeal.nD Cert.ReferenceIdeal.τ Cert.ReferenceIdeal.sig) → Buf (Elt F) ℓ)
    (c : Dev Cert.ReferenceIdeal.nD) :
    Cert.ReferenceIdeal.Value.res_main_v77 m' c
      = tailFn (Host.dotGeneral Cert.ReferenceIdeal.dot_S2048x4096_S4096x12288_S2048x12288_1_0_0_1_n_n none
            (m' ((c.tc : Thread Cert.ReferenceIdeal.nD Cert.ReferenceIdeal.τ).loc Cert.ReferenceIdeal.main_arg1))
            (m' ((c.tc : Thread Cert.ReferenceIdeal.nD Cert.ReferenceIdeal.τ).loc Cert.ReferenceIdeal.main_arg7)))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg8))
          (m' ((c.tc : Thread Cert.ReferenceIdeal.nD Cert.ReferenceIdeal.τ).loc Cert.ReferenceIdeal.main_arg9))
          (m' ((c.tc : Thread Cert.ReferenceIdeal.nD Cert.ReferenceIdeal.τ).loc Cert.ReferenceIdeal.main_arg10)) := by
  unfold Cert.ReferenceIdeal.Value.res_main_v77 tailFn
  rfl

end Cert.KernelIdeal.Hand

end
-- ==== Proof.KI.TailValue.lean ====
/-
  The kernel program's result as the tail function of the region's output: the 92 lines after the region, folded
  over the contents the region leaves (its three arrays as the pipeline's proof data say, every other buffer as the
  region was entered), compose to `tailFn` of the output array and of the arguments.  The lines read the output
  array `main_v6`; the left operand `main_arg1`, an INPUT window's array, which the region never writes back;
  the arguments 8, 9 and 10, which no window holds; and two results of the six lines BEFORE the region (`main_v2`,
  `main_v5`: reshapes and slices of the integer arguments 3 and 2), which the region leaves alone.
-/
import proofs.«104308_j67190468378873_1_alg».proof.Proof.KI.Base
import proofs.«104308_j67190468378873_1_alg».proof.Proof.TailFn
import Idealize.ShloMosaic.Lib.Pipeline.Cells
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo
open Cert.KernelIdeal.Gen

variable {F : FTy → Type} [FloatOps F]

/-! ## The concatenating lines read at their results

A concatenation takes its operands as a list of pairs (shape, contents).  Each concatenating line of the tail is read
here by a lemma whose right side names the operands' contents as plain arguments of one function (`cat3`, `cat2`), each
AT ITS OWN REFERENCE, so that the operands' own lines can be read in turn; the functions unfold to the lists again at the
end.  Three lines put two arrays of 1280 words and one of 2048 words end to end; one puts two columns side by side. -/

/-- Two arrays of 1280 words and one of 2048, end to end. -/
def cat3 (p q : (⟨S1280, .i32⟩ : BufTy).Contents (Elt F)) (r : (⟨S2048, .i32⟩ : BufTy).Contents (Elt F)) :
    (⟨S4608, .i32⟩ : BufTy).Contents (Elt F) :=
  concatenate S4608 0 [⟨S1280, p⟩, ⟨S1280, q⟩, ⟨S2048, r⟩] concatenates_S1280_S1280_S2048_S4608_d0

/-- The three end-to-end lines, each read at its result. -/
theorem v27_result (G : Valuation τ sig (Elt F)) :
    (StableHlo.nary (τ := τ) ![main_v18, main_v22, main_v26] main_v27 (fun u => concatenate S4608 0 [⟨S1280, u 0⟩, ⟨S1280, u 1⟩, ⟨S2048, u 2⟩] concatenates_S1280_S1280_S2048_S4608_d0)).result G (no_index (Proc.devRef .tc main_v27))
      = cat3 (G (Proc.devRef .tc main_v18)) (G (Proc.devRef .tc main_v22)) (G (Proc.devRef .tc main_v26)) :=
  (nary_result _ _ _ _ _ G).trans rfl
theorem v29_result (G : Valuation τ sig (Elt F)) :
    (StableHlo.nary (τ := τ) ![main_v5, main_v5, main_v28] main_v29 (fun u => concatenate S4608 0 [⟨S1280, u 0⟩, ⟨S1280, u 1⟩, ⟨S2048, u 2⟩] concatenates_S1280_S1280_S2048_S4608_d0)).result G (no_index (Proc.devRef .tc main_v29))
      = cat3 (G (Proc.devRef .tc main_v5)) (G (Proc.devRef .tc main_v5)) (G (Proc.devRef .tc main_v28)) :=
  (nary_result _ _ _ _ _ G).trans rfl
theorem v30_result (G : Valuation τ sig (Elt F)) :
    (StableHlo.nary (τ := τ) ![main_v11, main_v13, main_v14] main_v30 (fun u => concatenate S4608 0 [⟨S1280, u 0⟩, ⟨S1280, u 1⟩, ⟨S2048, u 2⟩] concatenates_S1280_S1280_S2048_S4608_d0)).result G (no_index (Proc.devRef .tc main_v30))
      = cat3 (G (Proc.devRef .tc main_v11)) (G (Proc.devRef .tc main_v13)) (G (Proc.devRef .tc main_v14)) :=
  (nary_result _ _ _ _ _ G).trans rfl

/-- Two columns of 4608 words, side by side. -/
def cat2 (p q : (⟨S4608x1, .i32⟩ : BufTy).Contents (Elt F)) : (⟨S4608x2, .i32⟩ : BufTy).Contents (Elt F) :=
  concatenate S4608x2 1 [⟨S4608x1, p⟩, ⟨S4608x1, q⟩] concatenates_S4608x1_S4608x1_S4608x2_d1

/-- The side-by-side line read at its result. -/
theorem v47_result (G : Valuation τ sig (Elt F)) :
    (StableHlo.binary (τ := τ) main_v45 main_v46 main_v47 ((fun a b => concatenate S4608x2 1 [⟨S4608x1, a⟩, ⟨S4608x1, b⟩] concatenates_S4608x1_S4608x1_S4608x2_d1) : (⟨S4608x1, .i32⟩ : BufTy).Contents (Elt F) → (⟨S4608x1, .i32⟩ : BufTy).Contents (Elt F) → (⟨S4608x2, .i32⟩ : BufTy).Contents (Elt F))).result G (no_index (Proc.devRef .tc main_v47))
      = cat2 (G (Proc.devRef .tc main_v45)) (G (Proc.devRef .tc main_v46)) :=
  (binary_result _ _ _ _ _ _ _ G).trans rfl

variable (m : (ℓ : Loc nD τ sig) → Buf (Elt F) ℓ)

/-! ## What the six lines before the region leave in the two buffers the tail reads -/

theorem V0_v2 (c : Dev nD) : V0 m c (Proc.devRef .tc main_v2)
    = shapeCast _ (extractStridedSlice S64x20x3 ![0, 0, 0] (shapeCast _ (m ((c : Thread nD τ).loc main_arg3)) shapeCasts_S2048x3_S64x32x3) slices_S64x32x3_S64x20x3_0_0_0) shapeCasts_S64x20x3_S1280x3 := by
  dsimp only [V0]; simp only [List.flatten_cons, List.flatten_nil, List.append_nil]; after_results; rfl

theorem V0_v5 (c : Dev nD) : V0 m c (Proc.devRef .tc main_v5)
    = shapeCast _ (extractStridedSlice S64x20 ![0, 0] (shapeCast _ (m ((c : Thread nD τ).loc main_arg2)) shapeCasts_S2048_S64x32) slices_S64x32_S64x20_0_0) shapeCasts_S64x20_S1280 := by
  dsimp only [V0]; simp only [List.flatten_cons, List.flatten_nil, List.append_nil]; after_results; rfl

/-! ## The four reshaping lines read at their results

The reshape of the operand's contents, with the target shape spelt as the literal it is. -/

theorem v7_result (G : Valuation τ sig (Elt F)) :
    (StableHlo.reshape (τ := τ) (Val := Elt F) main_v6 main_v7 rfl shapeCasts_S2048x12288_S6144x4096).result G (no_index (Proc.devRef .tc main_v7))
      = shapeCast S6144x4096 (G (Proc.devRef .tc main_v6)) shapeCasts_S2048x12288_S6144x4096 :=
  (reshape_result _ _ _ _ _ _ G).trans rfl
theorem v9_result (G : Valuation τ sig (Elt F)) :
    (StableHlo.reshape (τ := τ) (Val := Elt F) main_v8 main_v9 rfl shapeCasts_S2048x3_S6144).result G (no_index (Proc.devRef .tc main_v9))
      = shapeCast S6144 (G (Proc.devRef .tc main_v8)) shapeCasts_S2048x3_S6144 :=
  (reshape_result _ _ _ _ _ _ G).trans rfl
theorem v11_result (G : Valuation τ sig (Elt F)) :
    (StableHlo.reshape (τ := τ) (Val := Elt F) main_v10 main_v11 rfl shapeCasts_S1280x1_S1280).result G (no_index (Proc.devRef .tc main_v11))
      = shapeCast S1280 (G (Proc.devRef .tc main_v10)) shapeCasts_S1280x1_S1280 :=
  (reshape_result _ _ _ _ _ _ G).trans rfl
theorem v13_result (G : Valuation τ sig (Elt F)) :
    (StableHlo.reshape (τ := τ) (Val := Elt F) main_v12 main_v13 rfl shapeCasts_S1280x1_S1280).result G (no_index (Proc.devRef .tc main_v13))
      = shapeCast S1280 (G (Proc.devRef .tc main_v12)) shapeCasts_S1280x1_S1280 :=
  (reshape_result _ _ _ _ _ _ G).trans rfl

/-! ## The rectifier's three lines -/

/-- The last three lines (a zero array, and the maximum with it), over any contents: the maximum of what `main_v76`
    holds with the zero array. -/
theorem relu_tail (G : Valuation τ sig (Elt F)) :
    StableHlo.after hostOps1_1 G (Proc.devRef .tc main_v77)
      = maximumf (G (Proc.devRef .tc main_v76)) (broadcastInDim S2048x4096 ![] bcast_S_S2048x4096 (constant S_ .f32 0x00000000#32)) := by
  after_results_simp
  rfl

/-! ## The tail -/

set_option maxHeartbeats 4000000 in
/-- The kernel program's result is the tail function of the region's output array and of the arguments. -/
theorem ker_tail (dats : (p : Fin 1) → (c : Dev nD) → Dat τ (Elt F) Unit ℕ (UR sig nD τ) ℕ (cfgs p) c) (c : Dev nD)
    (hA0 : (dats 0 c).A 0 = V m c (Pipeline.arrRef spec0 0))
    (hV1 : V m c main_arg1 = m ((c : Thread nD τ).loc main_arg1))
    (hV2 : V m c main_arg2 = m ((c : Thread nD τ).loc main_arg2))
    (hV3 : V m c main_arg3 = m ((c : Thread nD τ).loc main_arg3))
    (hV8 : V m c main_arg8 = m ((c : Thread nD τ).loc main_arg8))
    (hV9 : V m c main_arg9 = m ((c : Thread nD τ).loc main_arg9))
    (hV10 : V m c main_arg10 = m ((c : Thread nD τ).loc main_arg10)) :
    Pipeline.afterTail₀ cfgs dats 0 (V0 m) tailOps c main_v77
      = tailFn ((dats 0 c).arrAt 2 cfg0.N) (m ((c : Thread nD τ).loc main_arg1)) (m ((c : Thread nD τ).loc main_arg2))
          (m ((c : Thread nD τ).loc main_arg3)) (m ((c : Thread nD τ).loc main_arg8)) (m ((c : Thread nD τ).loc main_arg9))
          (m ((c : Thread nD τ).loc main_arg10)) := by
  -- the region's exit contents at the seven buffers the tail reads
  have h6 : Pipeline.withArrays spec0 c (V0 m c) (fun w => (dats 0 c).arrAt w cfg0.N) (Proc.devRef .tc main_v6)
      = (dats 0 c).arrAt 2 cfg0.N := Pipeline.withArrays_arr spec0 winFacts0.arr_inj c _ _ 2
  have h1 : Pipeline.withArrays spec0 c (V0 m c) (fun w => (dats 0 c).arrAt w cfg0.N) (Proc.devRef .tc main_arg1)
      = m ((c : Thread nD τ).loc main_arg1) :=
    (Pipeline.withArrays_arr spec0 winFacts0.arr_inj c _ _ 0).trans (((dats 0 c).arrAt_in 0 rfl _).trans (hA0.trans hV1))
  have h8 : Pipeline.withArrays spec0 c (V0 m c) (fun w => (dats 0 c).arrAt w cfg0.N) (Proc.devRef .tc main_arg8)
      = m ((c : Thread nD τ).loc main_arg8) :=
    (Pipeline.withArrays_of_ne spec0 c _ _ main_arg8 (by decide)).trans hV8
  have h9 : Pipeline.withArrays spec0 c (V0 m c) (fun w => (dats 0 c).arrAt w cfg0.N) (Proc.devRef .tc main_arg9)
      = m ((c : Thread nD τ).loc main_arg9) :=
    (Pipeline.withArrays_of_ne spec0 c _ _ main_arg9 (by decide)).trans hV9
  have h10 : Pipeline.withArrays spec0 c (V0 m c) (fun w => (dats 0 c).arrAt w cfg0.N) (Proc.devRef .tc main_arg10)
      = m ((c : Thread nD τ).loc main_arg10) :=
    (Pipeline.withArrays_of_ne spec0 c _ _ main_arg10 (by decide)).trans hV10
  have h2 := (Pipeline.withArrays_of_ne spec0 c (V0 m c) (fun w => (dats 0 c).arrAt w cfg0.N) main_v2 (by decide)).trans (V0_v2 m c)
  have h5 := (Pipeline.withArrays_of_ne spec0 c (V0 m c) (fun w => (dats 0 c).arrAt w cfg0.N) main_v5 (by decide)).trans (V0_v5 m c)
  unfold Pipeline.afterTail₀
  simp only [tailOps, List.flatten_cons, List.flatten_nil, List.append_nil]
  show StableHlo.after (hostOps1 ++ hostOps1_1) (Pipeline.withArrays spec0 c (V0 m c) (fun w => (dats 0 c).arrAt w cfg0.N)) (Proc.devRef .tc main_v77) = _
  generalize Pipeline.withArrays spec0 c (V0 m c) (fun w => (dats 0 c).arrAt w cfg0.N) = W at h6 h1 h8 h9 h10 h2 h5 ⊢
  -- the rectifier's lines first, then the 89 lines as one pass over their results
  rw [StableHlo.after_append, relu_tail]
  simp (disch := decide) only [after_cons, after_nil, ↓v47_result,
      nullary_result', unary_result', binary_result', ternary_result', v7_result, v9_result, v11_result, v13_result, v27_result, v29_result, v30_result,
      nullary_result_ne', unary_result_ne', binary_result_ne', ternary_result_ne', reshape_result_ne', nary_result_ne']
  -- what is left reads the exit contents at the seven buffers only
  rw [h6, h1, h8, h9, h10, h2, h5]
  -- both sides are now the same composed term of the output array and the arguments, taken as variables
  clear h6 h1 h8 h9 h10 h2 h5 hA0 hV1 hV2 hV3 hV8 hV9 hV10
  generalize (dats 0 c).arrAt 2 cfg0.N = X
  generalize m ((c : Thread nD τ).loc main_arg1) = a1
  generalize m ((c : Thread nD τ).loc main_arg2) = a2
  generalize m ((c : Thread nD τ).loc main_arg3) = a3
  generalize m ((c : Thread nD τ).loc main_arg8) = a8
  generalize m ((c : Thread nD τ).loc main_arg9) = a9
  generalize m ((c : Thread nD τ).loc main_arg10) = a10
  unfold tailFn cat3 cat2
  rfl

end Cert.KernelIdeal.Hand

end
-- ==== Proof.lean ====
/-
  The proof of `Cert.Claim`. The kernel program computes region_feats · W_conv in a pallas_call that accumulates, for each
  512 × 1024 output block, the products of the four pairs of operand blocks along the contraction axis, and then applies
  ninety-two host lines (index arithmetic on the relation table, two gathers, a sigmoid gate, a scatter-add, a rectifier)
  to that product and the arguments; the reference applies the same lines to ONE dot_general. On the extended reals a
  sum over 4096 terms regrouped as four sums of 1024 is the same sum (addition is associative and commutative there,
  no finiteness is used), and the rounding of the operands to bf16 is the identity at the ideal instance: so the two
  products are one array, and the two results are one function (`tailFn`) of it and of the arguments.
  The three frames: the kernel program's, at the word-level and the ideal instance, by the region's proof data and the
  library's frame run (Proof/K/Frame.lean, Proof/KI/Frame.lean: the accumulator carried between grid points, the output
  block idle until the last contraction step); the reference's by its run. The idealization rewrote nothing.
-/
import proofs.«104308_j67190468378873_1_alg».proof.Defs
import proofs.«104308_j67190468378873_1_alg».proof.Proof.Gen.Kernel
import proofs.«104308_j67190468378873_1_alg».proof.Proof.Gen.KernelIdeal
import proofs.«104308_j67190468378873_1_alg».proof.Proof.Gen.ReferenceIdeal
import proofs.«104308_j67190468378873_1_alg».proof.Proof.Gen.ReferenceIdeal.Run
import proofs.«104308_j67190468378873_1_alg».proof.Proof.Gen.Pre_finite_inputs
import proofs.«104308_j67190468378873_1_alg».proof.Proof.K.Frame
import proofs.«104308_j67190468378873_1_alg».proof.Proof.KI.Frame
import proofs.«104308_j67190468378873_1_alg».proof.Proof.KI.Value
import proofs.«104308_j67190468378873_1_alg».proof.Proof.KI.TailValue
import proofs.«104308_j67190468378873_1_alg».proof.Proof.TailFn
import Idealize.ShloMosaic.Adequacy
import Idealize.ShloMosaic.Init

noncomputable section

namespace Cert.Proof

open Idealize.ShloMosaic Idealize.SL.Sem

/-- The word-level kernel program runs to the end, faults nowhere and leaves its arguments unchanged. -/
theorem frame_p : Cert.frame_Kernel := fun m ρ _ =>
  (θ_run Cert.Kernel.defs _ _).mono (fun _ h c => (h c).2) (Cert.Kernel.Hand.run_named (F := Bits) m ρ)

/-- So does its idealization. -/
theorem frame_pi : Cert.frame_KernelIdeal := fun m ρ _ =>
  (θ_run Cert.KernelIdeal.defs _ _).mono (fun _ h c => (h c).2) (Cert.KernelIdeal.Hand.run_named (F := Ideal) m ρ)

/-- The reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with `tailFn` of the product of the two matrix arguments and of the other arguments: the kernel's
    accumulated blocks are the reference's dot_general (`final_v6`), and what follows the product is the same text. -/
theorem algebraic : Cert.algebraic_KernelIdeal_ReferenceIdeal := by
  intro m ρ m' ρ' _ hagree
  refine ⟨fun c => Cert.KernelIdeal.Hand.tailFn (F := Ideal)
      (Host.dotGeneral (F := Ideal) (φ₁ := .f32) (φ₂ := .f32) Cert.ReferenceIdeal.dot_S2048x4096_S4096x12288_S2048x12288_1_0_0_1_n_n none (m ((c.tc : Thread Cert.KernelIdeal.nD Cert.KernelIdeal.τ).loc Cert.KernelIdeal.main_arg1)) (m ((c.tc : Thread Cert.KernelIdeal.nD Cert.KernelIdeal.τ).loc Cert.KernelIdeal.main_arg7)))
      (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · refine (θ_run Cert.KernelIdeal.defs _ _).mono (fun _ h c => ⟨(h c).1.trans ?_, (h c).2⟩) (Cert.KernelIdeal.Hand.run_named (F := Ideal) m ρ)
    rw [Cert.KernelIdeal.Hand.ker_tail m (Cert.KernelIdeal.Hand.dats m) c (Cert.KernelIdeal.Hand.A_eq m c 0)
      (Cert.KernelIdeal.Hand.V_main_arg1 m c) (Cert.KernelIdeal.Hand.V_main_arg2 m c) (Cert.KernelIdeal.Hand.V_main_arg3 m c)
      (Cert.KernelIdeal.Hand.V_main_arg8 m c) (Cert.KernelIdeal.Hand.V_main_arg9 m c) (Cert.KernelIdeal.Hand.V_main_arg10 m c),
      Cert.KernelIdeal.Hand.final_v6 m c (Cert.KernelIdeal.Hand.dats m 0 c) (Cert.KernelIdeal.Hand.A_eq m c) (Cert.KernelIdeal.Hand.after2 m c)
        (Cert.KernelIdeal.Hand.V_main_arg1 m c) (Cert.KernelIdeal.Hand.V_main_arg7 m c)]
  · refine (θ_run Cert.ReferenceIdeal.defs _ _).mono (fun _ h c => ⟨(h c).1.trans ?_, (h c).2⟩) (Cert.ReferenceIdeal.Value.run (F := Ideal) m' ρ')
    rw [Cert.KernelIdeal.Hand.ref_tail m' c, (hagree c).2.1, (hagree c).2.2.1, (hagree c).2.2.2.1, (hagree c).2.2.2.2.2.2.2.1,
      (hagree c).2.2.2.2.2.2.2.2.1, (hagree c).2.2.2.2.2.2.2.2.2.1, (hagree c).2.2.2.2.2.2.2.2.2.2]

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
